-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S100x512 : Shape := ⟨2, ![100, 512]⟩
abbrev S131072x100 : Shape := ⟨2, ![131072, 100]⟩
abbrev S512x512 : Shape := ⟨2, ![512, 512]⟩
abbrev S512 : Shape := ⟨1, ![512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S100x512 : S_.BroadcastsInDim S100x512 (![] : Fin 0 → Fin S100x512.rank)
  reducesTo_S100x512_S_d0_1 : S100x512.ReducesTo [0, 1] S_
  bcast_S_S131072x100 : S_.BroadcastsInDim S131072x100 (![] : Fin 0 → Fin S131072x100.rank)
  reducesTo_S131072x100_S_d0_1 : S131072x100.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_arg8 : FVec F S512x512 .f32) (main_arg9 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S512x512 .f32) (main_arg5 : FVec F S512 .f32) (main_arg6 : FVec F S512x512 .f32) (main_arg7 : FVec F S512 .f32) (main_arg8 : FVec F S512x512 .f32) (main_arg9 : FVec F S512 .f32) (main_v13 : IVec S_ 1) (main_v16 : IVec S131072x100 1) : IVec S_ 1 :=
  let main_c_5 : IVec S_ 1 := constantI S_ 1 1#1
  let main_v17 : IVec S_ 1 := (fun x v => Host.reduce IntOp.andi x v reducesTo_S131072x100_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S131072x512 .f32) (main_arg1 : FVec F S100x512 .f32) (main_arg2 : FVec F S100x512 .f32) (main_arg3 : FVec F S131072x100 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S100x512 .f32 := Host.absf main_arg1
  let main_cst_0 : FVec F S_ .f32 := constant S_ .f32 0x7F800000#32
  let main_v5 : FVec F S100x512 .f32 := broadcastInDim S100x512 ![] bcast_S_S100x512 main_cst_0
  let main_v6 : IVec S100x512 1 := cmpf .olt main_v4 main_v5
  let main_c_1 : IVec S_ 1 := constantI S_ 1 1#1
  let main_v7 : IVec S_ 1 := (fun x v => Host.reduce IntOp.andi x v reducesTo_S100x512_S_d0_1 h_S_) main_v6 main_c_1
  let main_v8 : IVec S_ 1 := andi main_v3 main_v7
  let main_v9 : FVec F S100x512 .f32 := Host.absf main_arg2
  let main_cst_2 : FVec F S_ .f32 := constant S_ .f32 0x7F800000#32
  let main_v10 : FVec F S100x512 .f32 := broadcastInDim S100x512 ![] bcast_S_S100x512 main_cst_2
  let main_v11 : IVec S100x512 1 := cmpf .olt main_v9 main_v10
  let main_c_3 : IVec S_ 1 := constantI S_ 1 1#1
  let main_v12 : IVec S_ 1 := (fun x v => Host.reduce IntOp.andi x v reducesTo_S100x512_S_d0_1 h_S_) main_v11 main_c_3
  let main_v13 : IVec S_ 1 := andi main_v8 main_v12
  let main_v14 : FVec F S131072x100 .f32 := Host.absf main_arg3
  let main_cst_4 : FVec F S_ .f32 := constant S_ .f32 0x7F800000#32
  let main_v15 : FVec F S131072x100 .f32 := broadcastInDim S131072x100 ![] bcast_S_S131072x100 main_cst_4
  let main_v16 : IVec S131072x100 1 := cmpf .olt main_v14 main_v15
  fn_part1 (F := F) main_arg4 main_arg5 main_arg6 main_arg7 main_arg8 main_arg9 main_v13 main_v16
-- ==== Kernel.lean ====
abbrev S131072x512 : Shape := ⟨2, ![131072, 512]⟩
abbrev S100x512 : Shape := ⟨2, ![100, 512]⟩
abbrev S131072x100 : Shape := ⟨2, ![131072, 100]⟩
abbrev S512x512 : Shape := ⟨2, ![512, 512]⟩
abbrev S512 : Shape := ⟨1, ![512]⟩
abbrev S1x512 : Shape := ⟨2, ![1, 512]⟩
abbrev S512x100 : Shape := ⟨2, ![512, 100]⟩
abbrev S2048x512 : Shape := ⟨2, ![2048, 512]⟩
abbrev S2048x100 : Shape := ⟨2, ![2048, 100]⟩
abbrev S2048 : Shape := ⟨1, ![2048]⟩
abbrev S2048x1 : Shape := ⟨2, ![2048, 1]⟩

abbrev nBuf : Space → Nat
  | .hbm => 20
  | .vmem => 18
  | .smem => 0
  | _ => 0

abbrev bufTy : (tb : Table) → Fin (tcTables nBuf tb) → BufTy
  | .hbm, ⟨0, _⟩ => ⟨S131072x512, .f32⟩
  | .hbm, ⟨1, _⟩ => ⟨S100x512, .f32⟩
  | .hbm, ⟨2, _⟩ => ⟨S100x512, .f32⟩
  | .hbm, ⟨3, _⟩ => ⟨S131072x100, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512x512, .bf16⟩
  | .hbm, ⟨12, _⟩ => ⟨S512x512, .f32⟩
  | .hbm, ⟨13, _⟩ => ⟨S512x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S512x100, .bf16⟩
  | .hbm, ⟨18, _⟩ => ⟨S100x512, .bf16⟩
  | .hbm, ⟨19, _⟩ => ⟨S131072x512, .f32⟩
  | .local _ .vmem, ⟨0, _⟩ => ⟨S100x512, .f32⟩
  | .local _ .vmem, ⟨1, _⟩ => ⟨S100x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S512x100, .bf16⟩
  | .local _ .vmem, ⟨7, _⟩ => ⟨S100x512, .bf16⟩
  | .local _ .vmem, ⟨8, _⟩ => ⟨S2048x512, .f32⟩
  | .local _ .vmem, ⟨9, _⟩ => ⟨S2048x512, .f32⟩
  | .local _ .vmem, ⟨10, _⟩ => ⟨S512x512, .bf16⟩
  | .local _ .vmem, ⟨11, _⟩ => ⟨S1x512, .f32⟩
  | .local _ .vmem, ⟨12, _⟩ => ⟨S512x100, .bf16⟩
  | .local _ .vmem, ⟨13, _⟩ => ⟨S100x512, .bf16⟩
  | .local _ .vmem, ⟨14, _⟩ => ⟨S2048x100, .f32⟩
  | .local _ .vmem, ⟨15, _⟩ => ⟨S2048x100, .f32⟩
  | .local _ .vmem, ⟨16, _⟩ => ⟨S2048x512, .f32⟩
  | .local _ .vmem, ⟨17, _⟩ => ⟨S2048x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v8 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S100x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S100x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x100 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S100x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x100 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S100x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x100 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S512x512_S512x512_1_0 : S512x512.Transposes [1, 0] S512x512
  bitsLt_bf16_f32 : FTy.bits .bf16 < FTy.bits .f32
  shapeCasts_S512_S1x512 : S512.ShapeCasts S1x512
  inb_S100x512_S100x512_0_0 : ∀ a, (![0, 0] : Fin 2 → Nat) a + S100x512.size a ≤ S100x512.size a
  h_S100x512 : 0 < S100x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S100x512 : S1x512.Broadcasts S100x512
  transposes_S100x512_p1_0_S512x100 : S100x512.Transposes [1, 0] S512x100
  inb_S512x100_S512x100_0_0 : ∀ a, (![0, 0] : Fin 2 → Nat) a + S512x100.size a ≤ S512x100.size a
  h_S512x100 : 0 < S512x100.numel
  packedbf16_S512x100_S512x100_0_0 : (Rect.unit (s := S512x100) ![0, 0] S512x100.size inb_S512x100_S512x100_0_0).PackedRows (EltTy.packing .bf16)
  packedbf16_S100x512_S100x512_0_0 : (Rect.unit (s := S100x512) ![0, 0] S100x512.size inb_S100x512_S100x512_0_0).PackedRows (EltTy.packing .bf16)
  inb_S2048x512_S2048x512_0_0 : ∀ a, (![0, 0] : Fin 2 → Nat) a + S2048x512.size a ≤ S2048x512.size a
  h_S2048x512 : 0 < S2048x512.numel
  broadcasts_S1x512_S2048x512 : S1x512.Broadcasts S2048x512
  shapeCasts_S512x100_S512x100 : S512x100.ShapeCasts S512x100
  reduces_S2048x100_S2048 : S2048x100.Reduces [1] S2048
  shapeCasts_S2048_S2048x1 : S2048.ShapeCasts S2048x1
  broadcasts_S2048x1_S2048x100 : S2048x1.Broadcasts S2048x100
  inb_S2048x100_S2048x100_0_0 : ∀ a, (![0, 0] : Fin 2 → Nat) a + S2048x100.size a ≤ S2048x100.size a
  h_S2048x100 : 0 < S2048x100.numel
  shapeCasts_S100x512_S100x512 : S100x512.ShapeCasts S100x512
  dot_S100x512_S512x512_S100x512_1_0_0_1_n_n_wf : DotDims.WF S100x512 S512x512 S100x512 [1] [0] [0] [1] [] []
  dot_S2048x512_S512x512_S2048x512_1_0_0_1_n_n_wf : DotDims.WF S2048x512 S512x512 S2048x512 [1] [0] [0] [1] [] []
  dot_S2048x512_S512x100_S2048x100_1_0_0_1_n_n_wf : DotDims.WF S2048x512 S512x100 S2048x100 [1] [0] [0] [1] [] []
  dot_S2048x100_S100x512_S2048x512_1_0_0_1_n_n_wf : DotDims.WF S2048x100 S100x512 S2048x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S100x512.size a ≤ S100x512.size a
  hwx0_0 : ∀ i : grid0.Coords, EltTy.bits .f32 = 32 ∨ (Rect.block (s := S100x512) S100x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x512.size a ≤ S100x512.size a
  hwx0_1 : ∀ i : grid0.Coords, EltTy.bits .f32 = 32 ∨ (Rect.block (s := S100x512) S100x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x100.size a ≤ S512x100.size a
  hwx0_6 : ∀ i : grid0.Coords, EltTy.bits .bf16 = 32 ∨ (Rect.block (s := S512x100) S512x100.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S100x512.size a ≤ S100x512.size a
  hwx0_7 : ∀ i : grid0.Coords, EltTy.bits .bf16 = 32 ∨ (Rect.block (s := S100x512) S100x512.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S131072x512.size a
  hwx1_0 : ∀ i : grid1.Coords, EltTy.bits .f32 = 32 ∨ (Rect.block (s := S131072x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x100.size a ≤ S512x100.size a
  hwx1_3 : ∀ i : grid1.Coords, EltTy.bits .bf16 = 32 ∨ (Rect.block (s := S512x100) S512x100.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S100x512.size a ≤ S100x512.size a
  hwx1_4 : ∀ i : grid1.Coords, EltTy.bits .bf16 = 32 ∨ (Rect.block (s := S100x512) S100x512.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x100.size a ≤ S131072x100.size a
  hwx1_5 : ∀ i : grid1.Coords, EltTy.bits .f32 = 32 ∨ (Rect.block (s := S131072x100) S2048x100.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x512.size a ≤ S131072x512.size a
  hwx1_6 : ∀ i : grid1.Coords, EltTy.bits .f32 = 32 ∨ (Rect.block (s := S131072x512) S2048x512.size (cc1_transform_6 i) (hinb1_6 i)).WholeWords (EltTy.packing .f32)

variable [Facts₀]

def dot_S100x512_S512x512_S100x512_1_0_0_1_n_n : DotDims S100x512 S512x512 S100x512 where
  lhsContracting := [1]
  rhsContracting := [0]
  lhsNonContracting := [0]
  rhsNonContracting := [1]
  lhsBatch := []
  rhsBatch := []
  wf := dot_S100x512_S512x512_S100x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x100_S2048x100_1_0_0_1_n_n : DotDims S2048x512 S512x100 S2048x100 where
  lhsContracting := [1]
  rhsContracting := [0]
  lhsNonContracting := [0]
  rhsNonContracting := [1]
  lhsBatch := []
  rhsBatch := []
  wf := dot_S2048x512_S512x100_S2048x100_1_0_0_1_n_n_wf
def dot_S2048x100_S100x512_S2048x512_1_0_0_1_n_n : DotDims S2048x100 S100x512 S2048x512 where
  lhsContracting := [1]
  rhsContracting := [0]
  lhsNonContracting := [0]
  rhsNonContracting := [1]
  lhsBatch := []
  rhsBatch := []
  wf := dot_S2048x100_S100x512_S2048x512_1_0_0_1_n_n_wf

abbrev win0_0 : Pipeline.Window sig grid0 :=
  Pipeline.Window.ofSpec (Memref.whole main_arg1) S100x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S100x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S512x100.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S100x512.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7_0) S512x100.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7_1) S100x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S2048x100.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v8) S2048x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S131072x512 : Shape := ⟨2, ![131072, 512]⟩
abbrev S100x512 : Shape := ⟨2, ![100, 512]⟩
abbrev S131072x100 : Shape := ⟨2, ![131072, 100]⟩
abbrev S512x512 : Shape := ⟨2, ![512, 512]⟩
abbrev S512 : Shape := ⟨1, ![512]⟩
abbrev S1x512 : Shape := ⟨2, ![1, 512]⟩
abbrev S_ : Shape := ⟨0, ![]⟩
abbrev S131072 : Shape := ⟨1, ![131072]⟩
abbrev S131072x1 : Shape := ⟨2, ![131072, 1]⟩

abbrev nBuf : Space → Nat
  | .hbm => 73
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S100x512, .f32⟩
  | .hbm, ⟨2, _⟩ => ⟨S100x512, .f32⟩
  | .hbm, ⟨3, _⟩ => ⟨S131072x100, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S131072x512, .f32⟩
  | .hbm, ⟨12, _⟩ => ⟨S1x512, .f32⟩
  | .hbm, ⟨13, _⟩ => ⟨S131072x512, .f32⟩
  | .hbm, ⟨14, _⟩ => ⟨S131072x512, .f32⟩
  | .hbm, ⟨15, _⟩ => ⟨S512x512, .f32⟩
  | .hbm, ⟨16, _⟩ => ⟨S100x512, .f32⟩
  | .hbm, ⟨17, _⟩ => ⟨S1x512, .f32⟩
  | .hbm, ⟨18, _⟩ => ⟨S100x512, .f32⟩
  | .hbm, ⟨19, _⟩ => ⟨S100x512, .f32⟩
  | .hbm, ⟨20, _⟩ => ⟨S512x512, .f32⟩
  | .hbm, ⟨21, _⟩ => ⟨S100x512, .f32⟩
  | .hbm, ⟨22, _⟩ => ⟨S1x512, .f32⟩
  | .hbm, ⟨23, _⟩ => ⟨S100x512, .f32⟩
  | .hbm, ⟨24, _⟩ => ⟨S100x512, .f32⟩
  | .hbm, ⟨25, _⟩ => ⟨S131072x100, .f32⟩
  | .hbm, ⟨26, _⟩ => ⟨S_, .f32⟩
  | .hbm, ⟨27, _⟩ => ⟨S131072x100, .f32⟩
  | .hbm, ⟨28, _⟩ => ⟨S131072x100, .f32⟩
  | .hbm, ⟨29, _⟩ => ⟨S_, .f32⟩
  | .hbm, ⟨30, _⟩ => ⟨S131072, .f32⟩
  | .hbm, ⟨31, _⟩ => ⟨S_, .f32⟩
  | .hbm, ⟨32, _⟩ => ⟨S131072, .f32⟩
  | .hbm, ⟨33, _⟩ => ⟨S131072, .f32⟩
  | .hbm, ⟨34, _⟩ => ⟨S131072x1, .f32⟩
  | .hbm, ⟨35, _⟩ => ⟨S131072x100, .f32⟩
  | .hbm, ⟨36, _⟩ => ⟨S131072x100, .f32⟩
  | .hbm, ⟨37, _⟩ => ⟨S131072x100, .f32⟩
  | .hbm, ⟨38, _⟩ => ⟨S_, .f32⟩
  | .hbm, ⟨39, _⟩ => ⟨S131072, .f32⟩
  | .hbm, ⟨40, _⟩ => ⟨S131072x1, .f32⟩
  | .hbm, ⟨41, _⟩ => ⟨S131072x100, .f32⟩
  | .hbm, ⟨42, _⟩ => ⟨S131072x100, .f32⟩
  | .hbm, ⟨43, _⟩ => ⟨S_, .f32⟩
  | .hbm, ⟨44, _⟩ => ⟨S131072, .f32⟩
  | .hbm, ⟨45, _⟩ => ⟨S_, .f32⟩
  | .hbm, ⟨46, _⟩ => ⟨S131072, .f32⟩
  | .hbm, ⟨47, _⟩ => ⟨S131072, .f32⟩
  | .hbm, ⟨48, _⟩ => ⟨S131072x1, .f32⟩
  | .hbm, ⟨49, _⟩ => ⟨S131072x100, .f32⟩
  | .hbm, ⟨50, _⟩ => ⟨S131072x100, .f32⟩
  | .hbm, ⟨51, _⟩ => ⟨S131072x100, .f32⟩
  | .hbm, ⟨52, _⟩ => ⟨S_, .f32⟩
  | .hbm, ⟨53, _⟩ => ⟨S131072, .f32⟩
  | .hbm, ⟨54, _⟩ => ⟨S131072x1, .f32⟩
  | .hbm, ⟨55, _⟩ => ⟨S131072x100, .f32⟩
  | .hbm, ⟨56, _⟩ => ⟨S131072x100, .f32⟩
  | .hbm, ⟨57, _⟩ => ⟨S131072x100, .f32⟩
  | .hbm, ⟨58, _⟩ => ⟨S_, .f32⟩
  | .hbm, ⟨59, _⟩ => ⟨S131072, .f32⟩
  | .hbm, ⟨60, _⟩ => ⟨S_, .f32⟩
  | .hbm, ⟨61, _⟩ => ⟨S131072, .f32⟩
  | .hbm, ⟨62, _⟩ => ⟨S131072, .f32⟩
  | .hbm, ⟨63, _⟩ => ⟨S131072x1, .f32⟩
  | .hbm, ⟨64, _⟩ => ⟨S131072x100, .f32⟩
  | .hbm, ⟨65, _⟩ => ⟨S131072x100, .f32⟩
  | .hbm, ⟨66, _⟩ => ⟨S131072x100, .f32⟩
  | .hbm, ⟨67, _⟩ => ⟨S_, .f32⟩
  | .hbm, ⟨68, _⟩ => ⟨S131072, .f32⟩
  | .hbm, ⟨69, _⟩ => ⟨S131072x1, .f32⟩
  | .hbm, ⟨70, _⟩ => ⟨S131072x100, .f32⟩
  | .hbm, ⟨71, _⟩ => ⟨S131072x100, .f32⟩
  | .hbm, ⟨72, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S1x512_S100x512_0_1 : S1x512.BroadcastsInDim S100x512 (![0, 1] : Fin 2 → Fin S100x512.rank)
  bcast_S_S131072x100 : S_.BroadcastsInDim S131072x100 (![] : Fin 0 → Fin S131072x100.rank)
  reducesTo_S131072x100_S131072_d1 : S131072x100.ReducesTo [1] S131072
  h_S_ : 0 < S_.numel
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x100_0_1 : S131072x1.BroadcastsInDim S131072x100 (![0, 1] : Fin 2 → Fin S131072x100.rank)
  dot_S131072x512_S512x512_S131072x512_1_0_0_1_n_n_wf : DotDims.WF S131072x512 S512x512 S131072x512 [1] [0] [0] [1] [] []
  dot_S100x512_S512x512_S100x512_1_0_0_1_n_n_wf : DotDims.WF S100x512 S512x512 S100x512 [1] [0] [0] [1] [] []
  dot_S131072x512_S100x512_S131072x100_1_1_0_0_n_n_wf : DotDims.WF S131072x512 S100x512 S131072x100 [1] [1] [0] [0] [] []
  dot_S131072x100_S100x512_S131072x512_1_0_0_1_n_n_wf : DotDims.WF S131072x100 S100x512 S131072x512 [1] [0] [0] [1] [] []

variable [Facts₀]

def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf
def dot_S100x512_S512x512_S100x512_1_0_0_1_n_n : DotDims S100x512 S512x512 S100x512 where
  lhsContracting := [1]
  rhsContracting := [0]
  lhsNonContracting := [0]
  rhsNonContracting := [1]
  lhsBatch := []
  rhsBatch := []
  wf := dot_S100x512_S512x512_S100x512_1_0_0_1_n_n_wf
def dot_S131072x512_S100x512_S131072x100_1_1_0_0_n_n : DotDims S131072x512 S100x512 S131072x100 where
  lhsContracting := [1]
  rhsContracting := [1]
  lhsNonContracting := [0]
  rhsNonContracting := [0]
  lhsBatch := []
  rhsBatch := []
  wf := dot_S131072x512_S100x512_S131072x100_1_1_0_0_n_n_wf
def dot_S131072x100_S100x512_S131072x512_1_0_0_1_n_n : DotDims S131072x100 S100x512 S131072x512 where
  lhsContracting := [1]
  rhsContracting := [0]
  lhsNonContracting := [0]
  rhsNonContracting := [1]
  lhsBatch := []
  rhsBatch := []
  wf := dot_S131072x100_S100x512_S131072x512_1_0_0_1_n_n_wf

class Facts : Prop extends Facts₀ where

variable [Facts]
-- ==== Proof.Spec.lean ====
/-
  The function both programs compute, entry by entry, over the extended reals.

  From a query array q (131072 × 512), keys k and values v (100 × 512 each), a prior cp (131072 × 100) and three
  affine maps (W, b), every row n of the result is obtained as follows.  The three arrays are projected,
  x ↦ x · Wᵀ + b, entry (i, d) being Σⱼ x(i, j) · W(d, j) + b(d).  Row n of the projected queries is scored
  against each projected key c, score(n, c) = (Σₑ qp(n, e) · kp(c, e)) · s, with s one fixed positive constant.
  The scores of row n and row n of the prior each go through a softmax over the 100 classes — a row f goes to
  exp(f(c) − max f) / Σ_c' exp(f(c') − max f) —, the two results are multiplied class by class, the product goes
  through the softmax once more, and the outcome weighs the projected values: out(n, d) = Σ_c w(n, c) · vp(c, d).

  One program scales the scores after the sum over e; the other scales the projected keys before it.  The two
  agree because multiplication by a nonnegative real constant distributes over every sum of extended reals, the
  infinite ones included (`sum_mul_scale`), so nothing about the inputs is needed.
-/
import Idealize.ShloMosaic.PureOps.Ideal.Laws
import Idealize.ShloMosaic.Lib.ValueIdx

noncomputable section

namespace Cert.Spec

open Idealize.ShloMosaic Idealize.ShloMosaic.ValueIdx

/-- A two-axis array of extended reals. -/
abbrev Arr2 (a b : Nat) : Type := (⟨2, ![a, b]⟩ : Shape).Idx → EReal
/-- A one-axis array of extended reals. -/
abbrev Arr1 (a : Nat) : Type := (⟨1, ![a]⟩ : Shape).Idx → EReal

/-- Entry (i, d) of x · Wᵀ + b. -/
def proj {M : Nat} (x : Arr2 M 512) (W : Arr2 512 512) (b : Arr1 512) (i : Fin M) (d : Fin 512) : EReal :=
  (∑ j : Fin 512, x (ix2 i j) * W (ix2 d j)) + b (ix1 d)

/-- The largest entry of a row of 100, from −∞. -/
def rowMax (f : Fin 100 → EReal) : EReal := (Finset.univ : Finset (Fin 100)).fold max ⊥ f

/-- The softmax of a row of 100 at class c, stabilised by the row's maximum. -/
def softmax (f : Fin 100 → EReal) (c : Fin 100) : EReal :=
  Ideal.div (Ideal.exp (f c - rowMax f)) (∑ c' : Fin 100, Ideal.exp (f c' - rowMax f))

/-- One row's output at feature d: the softmax of the product of the two softmaxes, weighing the value rows. -/
def mix (sc cp : Fin 100 → EReal) (vp : Fin 100 → Fin 512 → EReal) (d : Fin 512) : EReal :=
  ∑ c : Fin 100, softmax (fun c' => softmax sc c' * softmax cp c') c * vp c d

/-- The score scale, the f32 nearest to 1/√512. -/
def scale : EReal := Ideal.ofBits .f32 0x3D3504F3#32

/-- The result, with the scores scaled after the sum. -/
def G (q : Arr2 131072 512) (k v : Arr2 100 512) (cp : Arr2 131072 100) (Wq : Arr2 512 512) (bq : Arr1 512)
    (Wk : Arr2 512 512) (bk : Arr1 512) (Wv : Arr2 512 512) (bv : Arr1 512) : Arr2 131072 512 := fun i =>
  mix (fun c => (∑ e : Fin 512, proj q Wq bq (i 0) e * proj k Wk bk c e) * scale)
    (fun c => cp (ix2 (i 0) c)) (proj v Wv bv) (i 1)

/-- The result, with the projected keys scaled before the sum. -/
def Gpre (q : Arr2 131072 512) (k v : Arr2 100 512) (cp : Arr2 131072 100) (Wq : Arr2 512 512) (bq : Arr1 512)
    (Wk : Arr2 512 512) (bk : Arr1 512) (Wv : Arr2 512 512) (bv : Arr1 512) : Arr2 131072 512 := fun i =>
  mix (fun c => ∑ e : Fin 512, proj q Wq bq (i 0) e * (proj k Wk bk c e * scale))
    (fun c => cp (ix2 (i 0) c)) (proj v Wv bv) (i 1)

/-- The scale is a nonnegative real number. -/
theorem scale_real : ∃ r : ℝ, 0 ≤ r ∧ scale = (r : EReal) := by
  refine ⟨(2 ^ 23 + 3474675 : ℕ) * (2 : ℝ) ^ (-28 : ℤ), by positivity, ?_⟩
  simp [scale, Ideal.ofBits, Ideal.ieee, -EReal.coe_mul]

/-- The pattern of −∞ denotes the bottom of the extended reals. -/
theorem ofBits_neg_inf : Ideal.ofBits .f32 0xFF800000#32 = ⊥ := by
  simp [Ideal.ofBits, Ideal.ieee]

/-- Multiplication by a nonnegative real constant distributes over a finite sum of extended reals. -/
theorem sum_mul_real {ι : Type} (s : Finset ι) (x : ι → EReal) {r : ℝ} (hr : 0 ≤ r) :
    (∑ e ∈ s, x e * (r : EReal)) = (∑ e ∈ s, x e) * (r : EReal) := by
  classical
  induction s using Finset.induction_on with
  | empty => simp
  | insert a s ha ih =>
    rw [Finset.sum_insert ha, Finset.sum_insert ha, ih,
      EReal.right_distrib_of_nonneg_of_ne_top (EReal.coe_nonneg.mpr hr) (EReal.coe_ne_top r)]

/-- Scaling the second factor of every product before the sum is scaling the sum. -/
theorem sum_mul_scale (a b : Fin 512 → EReal) :
    (∑ e : Fin 512, a e * (b e * scale)) = (∑ e : Fin 512, a e * b e) * scale := by
  obtain ⟨r, hr, hs⟩ := scale_real
  rw [hs, ← sum_mul_real Finset.univ (fun e => a e * b e) hr]
  exact Finset.sum_congr rfl fun e _ => (mul_assoc _ _ _).symm

/-- The two groupings give one array. -/
theorem Gpre_eq_G (q : Arr2 131072 512) (k v : Arr2 100 512) (cp : Arr2 131072 100) (Wq : Arr2 512 512) (bq : Arr1 512)
    (Wk : Arr2 512 512) (bk : Arr1 512) (Wv : Arr2 512 512) (bv : Arr1 512) :
    Gpre q k v cp Wq bq Wk bk Wv bv = G q k v cp Wq bq Wk bk Wv bv := by
  funext i
  unfold Gpre G
  exact congrArg (fun sc => mix sc (fun c => cp (ix2 (i 0) c)) (proj v Wv bv) (i 1))
    (funext fun c => sum_mul_scale _ _)

end Cert.Spec

end
-- ==== Proof.LibDotPlain.lean ====
/-
  The plain product of two matrices, read at one entry over the extended reals.

  A plain product of an M × K matrix by a K × N matrix has no batch axis; the left operand is contracted on its
  axis 1 and the right operand on its axis 0.  For the output entry (i, j) and the contraction position k, the left
  operand is read at (i, k) — its index keeps the output's row on axis 0 and takes the contraction position on
  axis 1 — and the right operand is read at (k, j) — its index takes the contraction position on axis 0 and keeps
  the output's column on axis 1.  The contraction has one axis, of extent K, so the sum over its index set is the sum
  over k < K.  Hence entry (i, j) of the product is Σₖ l(i, k) · r(k, j), both for the product a host program
  computes and for the product a kernel accumulates into a zero accumulator.  All of this holds for every M, K, N.
-/
import Idealize.ShloMosaic.PureOps.Ideal.Laws
import Idealize.ShloMosaic.Lib.ValueIdx

noncomputable section

namespace Cert.LibDot

open Idealize.ShloMosaic Idealize.ShloMosaic.ValueIdx

variable (M K N : Nat)

/-- Axis 0 of the left operand's index is the output's row. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- Axis 1 of the left operand's index is the contraction position. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- Axis 0 of the right operand's index is the contraction position. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Axis 1 of the right operand's index is the output's column. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- At output entry (i, j) and contraction position k the left operand is read at (i, k). -/
theorem lhsIdx_plain (i : Fin M) (j : Fin N) (k : Fin K) :
    (DotDims.plain M K N).lhsIdx (ix2 i j) ((contrEquiv1 (DotDims.plain M K N) K rfl rfl).symm k) = ix2 i k :=
  funext fun a => Fin.ext (by
    have hk := contrEquiv1_symm_val (DotDims.plain M K N) K rfl rfl k
    match a with
    | ⟨0, _⟩ => exact lhs_plain_0 M K N _ _
    | ⟨1, _⟩ => exact (lhs_plain_1 M K N _ _).trans hk)

/-- At output entry (i, j) and contraction position k the right operand is read at (k, j). -/
theorem rhsIdx_plain (i : Fin M) (j : Fin N) (k : Fin K) :
    (DotDims.plain M K N).rhsIdx (ix2 i j) ((contrEquiv1 (DotDims.plain M K N) K rfl rfl).symm k) = ix2 k j :=
  funext fun a => Fin.ext (by
    have hk := contrEquiv1_symm_val (DotDims.plain M K N) K rfl rfl k
    match a with
    | ⟨0, _⟩ => exact (rhs_plain_0 M K N _ _).trans hk
    | ⟨1, _⟩ => exact rhs_plain_1 M K N _ _)

/-- The sum over the plain product's contraction index set of the operands' products at entry (i, j) is
    Σₖ l(i, k) · r(k, j). -/
theorem sum_plain (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  refine Finset.sum_congr rfl fun k _ => ?_
  rw [lhsIdx_plain, rhsIdx_plain]

/-- Entry (i, j) of a host program's plain product: Σₖ l(i, k) · r(k, j). -/
theorem dg_plain {φ₁ φ₂ : FTy} (l : FVec Ideal ⟨2, ![M, K]⟩ φ₁) (r : FVec Ideal ⟨2, ![K, N]⟩ φ₂)
    (i : Fin M) (j : Fin N) :
    Host.dotGeneral (F := Ideal) (DotDims.plain M K N) none l r (ix2 i j)
      = ∑ k : Fin K, l (ix2 i k) * r (ix2 k j) :=
  (Ideal.dotGeneral_apply (DotDims.plain M K N) none .single l r _).trans (sum_plain M K N l r i j)

/-- Entry (i, j) of a kernel's plain product into a zero accumulator: Σₖ l(i, k) · r(k, j). -/
theorem mm_plain {φ₁ φ₂ : FTy} (l : FVec Ideal ⟨2, ![M, K]⟩ φ₁) (r : FVec Ideal ⟨2, ![K, N]⟩ φ₂)
    (i : Fin M) (j : Fin N) :
    matmul (DotDims.plain M K N) none l r (constant (F := Ideal) ⟨2, ![M, N]⟩ .f32 0x00000000#32) (ix2 i j)
      = ∑ k : Fin K, l (ix2 i k) * r (ix2 k j) :=
  (Ideal.matmul_constant_zero_apply (DotDims.plain M K N) none l r _).trans (sum_plain M K N l r i j)

end Cert.LibDot

end
-- ==== Proof.Region0.lean ====
/-
  The projection kernel: what its two stored blocks hold, entry by entry, and so what its two output arrays hold
  after its single grid point.  The keys are projected and scaled, stored transposed; the values are projected.
-/
import proofs.«412218_j68470368633523_3_alg».proof.Proof.Gen.KernelIdeal.Frame
import proofs.«412218_j68470368633523_3_alg».proof.Proof.Spec
import proofs.«412218_j68470368633523_3_alg».proof.Proof.LibDotPlain
import Idealize.ShloMosaic.Lib.Pipeline.Value
import Idealize.ShloMosaic.Lib.ValueLayout

noncomputable section

namespace Cert.Region0

open Cert.KernelIdeal Cert.KernelIdeal.Gen Idealize.ShloMosaic Idealize.ShloMosaic.TcCoe Idealize.SL.Sem
open Idealize.ShloMosaic.ValueIdx
open Idealize.ShloMosaic.Pipeline (Dat)

/-- Entry (e, c) of the transposed scaled key block: (Σⱼ k(c, j) · Wkᵀ(j, e) + bk(e)) · s. -/
theorem keys_apply (x0 : Vec Ideal S100x512 .f32) (x2 : Vec Ideal S512x512 .f32) (x3 : Vec Ideal S1x512 .f32)
    (e : Fin 512) (c : Fin 100) :
    k0_pay1 (F := Ideal) x0 x2 x3 (ix2 e c)
      = ((∑ j : Fin 512, x0 (ix2 c j) * x2 (ix2 j e)) + x3 (ix2 (0 : Fin 1) e)) * Cert.Spec.scale := by
  unfold k0_pay1
  refine (truncf_apply (φ := .f32) (ψ := .bf16) _ bitsLt_bf16_f32 _).trans ?_
  refine (transpose_ix2_apply _ _ e c).trans ?_
  refine (mulf_apply _ _ _).trans ?_
  refine congrArg₂ (· * ·) ?_ rfl
  refine (addf_apply _ _ _).trans ?_
  refine congrArg₂ (· + ·) ?_ ?_
  · rw [shapeCast_self]
    exact Cert.LibDot.mm_plain 100 512 512 _ _ c e
  · rw [shapeCast_self]
    exact broadcastTo_1b_ab_apply _ _ c e

/-- Entry (c, d) of the projected value block: Σⱼ v(c, j) · Wvᵀ(j, d) + bv(d). -/
theorem values_apply (x1 : Vec Ideal S100x512 .f32) (x4 : Vec Ideal S512x512 .f32) (x5 : Vec Ideal S1x512 .f32)
    (c : Fin 100) (d : Fin 512) :
    k0_pay2 (F := Ideal) x1 x4 x5 (ix2 c d)
      = (∑ j : Fin 512, x1 (ix2 c j) * x4 (ix2 j d)) + x5 (ix2 (0 : Fin 1) d) := by
  unfold k0_pay2
  show addf (F := Ideal) _ _ (ix2 c d) = _
  refine (addf_apply _ _ _).trans ?_
  refine congrArg₂ (· + ·) ?_ ?_
  · rw [shapeCast_self]
    exact Cert.LibDot.mm_plain 100 512 512 _ _ c d
  · rw [shapeCast_self]
    exact broadcastTo_1b_ab_apply _ _ c d

/-- The transposed scaled projected keys as one function of the key array, the transposed weight and the bias row. -/
def keysT (k : Vec Ideal S100x512 .f32) (wT : Vec Ideal S512x512 .f32) (b : Vec Ideal S1x512 .f32) : Vec Ideal S512x100 .bf16 :=
  fun i => ((∑ j : Fin 512, k (ix2 (i 1) j) * wT (ix2 j (i 0))) + b (ix2 (0 : Fin 1) (i 0))) * Cert.Spec.scale

/-- The projected values as one function of the value array, the transposed weight and the bias row. -/
def vals (v : Vec Ideal S100x512 .f32) (wT : Vec Ideal S512x512 .f32) (b : Vec Ideal S1x512 .f32) : Vec Ideal S100x512 .bf16 :=
  fun i => (∑ j : Fin 512, v (ix2 (i 0) j) * wT (ix2 j (i 1))) + b (ix2 (0 : Fin 1) (i 1))

theorem keys_block (x0 : Vec Ideal S100x512 .f32) (x2 : Vec Ideal S512x512 .f32) (x3 : Vec Ideal S1x512 .f32) (y : S512x100.Idx) :
    k0_pay1 (F := Ideal) x0 x2 x3 y = keysT x0 x2 x3 y := by
  obtain ⟨e, c, rfl⟩ : ∃ (e : Fin 512) (c : Fin 100), y = ix2 e c := ⟨y 0, y 1, eq_ix2 y⟩
  exact keys_apply x0 x2 x3 e c

theorem vals_block (x1 : Vec Ideal S100x512 .f32) (x4 : Vec Ideal S512x512 .f32) (x5 : Vec Ideal S1x512 .f32) (y : S100x512.Idx) :
    k0_pay2 (F := Ideal) x1 x4 x5 y = vals x1 x4 x5 y := by
  obtain ⟨c, d, rfl⟩ : ∃ (c : Fin 100) (d : Fin 512), y = ix2 c d := ⟨y 0, y 1, eq_ix2 y⟩
  exact values_apply x1 x4 x5 c d

theorem hz : (![0, 0] : Fin 2 → Nat) = fun _ => 0 := funext fun a => by fin_cases a <;> rfl

/-- The printed index maps at the single grid point: every block is its whole array. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

variable (V : (c : Dev nD) → (b : Ref sig .tc) → Buf (Elt Ideal) ((c : Thread nD τ).loc b))

theorem blk0_0 (c : Dev nD) (t : Fin cfg0.N) : (iblk0 V c 0 t : Vec Ideal S100x512 .f32) = V c main_arg1 := by
  obtain ⟨e0, e1, -⟩ := idx_facts t
  funext y
  show V c main_arg1 (((cfg0.win 0).blk t).view.emb y) = V c main_arg1 y
  refine congrArg _ (funext fun a => Fin.ext ?_)
  match a with
  | ⟨0, _⟩ => show win0_0.index t (0 : Fin 2) * 100 + 1 * (y 0).val = (y 0).val; omega
  | ⟨1, _⟩ => show win0_0.index t (1 : Fin 2) * 512 + 1 * (y 1).val = (y 1).val; omega

theorem blk0_1 (c : Dev nD) (t : Fin cfg0.N) : (iblk0 V c 1 t : Vec Ideal S100x512 .f32) = V c main_arg2 := by
  obtain ⟨-, -, e0, e1, -⟩ := idx_facts t
  funext y
  show V c main_arg2 (((cfg0.win 1).blk t).view.emb y) = V c main_arg2 y
  refine congrArg _ (funext fun a => Fin.ext ?_)
  match a with
  | ⟨0, _⟩ => show win0_1.index t (0 : Fin 2) * 100 + 1 * (y 0).val = (y 0).val; omega
  | ⟨1, _⟩ => show win0_1.index t (1 : Fin 2) * 512 + 1 * (y 1).val = (y 1).val; omega

theorem blk0_2 (c : Dev nD) (t : Fin cfg0.N) : (iblk0 V c 2 t : Vec Ideal S512x512 .f32) = V c main_v2 := by
  obtain ⟨-, -, -, -, e0, e1, -⟩ := idx_facts t
  funext y
  show V c main_v2 (((cfg0.win 2).blk t).view.emb y) = V c main_v2 y
  refine congrArg _ (funext fun a => Fin.ext ?_)
  match a with
  | ⟨0, _⟩ => show win0_2.index t (0 : Fin 2) * 512 + 1 * (y 0).val = (y 0).val; omega
  | ⟨1, _⟩ => show win0_2.index t (1 : Fin 2) * 512 + 1 * (y 1).val = (y 1).val; omega

theorem blk0_3 (c : Dev nD) (t : Fin cfg0.N) : (iblk0 V c 3 t : Vec Ideal S1x512 .f32) = V c main_v5 := by
  obtain ⟨-, -, -, -, -, -, e0, e1, -⟩ := idx_facts t
  funext y
  show V c main_v5 (((cfg0.win 3).blk t).view.emb y) = V c main_v5 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 512 + 1 * (y 1).val = (y 1).val; omega

theorem blk0_4 (c : Dev nD) (t : Fin cfg0.N) : (iblk0 V c 4 t : Vec Ideal S512x512 .f32) = V c main_v3 := by
  obtain ⟨-, -, -, -, -, -, -, -, e0, e1, -⟩ := idx_facts t
  funext y
  show V c main_v3 (((cfg0.win 4).blk t).view.emb y) = V c main_v3 y
  refine congrArg _ (funext fun a => Fin.ext ?_)
  match a with
  | ⟨0, _⟩ => show win0_4.index t (0 : Fin 2) * 512 + 1 * (y 0).val = (y 0).val; omega
  | ⟨1, _⟩ => show win0_4.index t (1 : Fin 2) * 512 + 1 * (y 1).val = (y 1).val; omega

theorem blk0_5 (c : Dev nD) (t : Fin cfg0.N) : (iblk0 V c 5 t : Vec Ideal S1x512 .f32) = V c main_v6 := by
  obtain ⟨-, -, -, -, -, -, -, -, -, -, e0, e1, -⟩ := idx_facts t
  funext y
  show V c main_v6 (((cfg0.win 5).blk t).view.emb y) = V c main_v6 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 512 + 1 * (y 1).val = (y 1).val; omega

/-- What the grid point writes back to the key output is the whole of `keysT` of the arrays as the region finds them. -/
theorem flushed6_eq (c : Dev nD) (t : Fin cfg0.N) :
    (dat0 V c).flushed 6 t = ((cfg0.win 6).blk t).view.read (Elt Ideal) (keysT (V c main_arg1) (V c main_v2) (V c main_v5)) := by
  show (cfg0.win 6).cut (grid0.coords t) ((dat0 V c).after 6 t) = _
  rw [after0_6]
  unfold out0_6
  rw [View.canon_unit_zero hz]
  simp only [View.ld_unit_zero (S := S100x512) hz, View.ld_unit_zero (S := S512x512) hz, View.ld_unit_zero (S := S1x512) hz]
  obtain ⟨-, -, -, -, -, -, -, -, -, -, -, -, e0, e1, -⟩ := idx_facts t
  funext y
  refine (keys_block (iblk0 V c 0 t) (iblk0 V c 2 t) (iblk0 V c 3 t) y).trans ?_
  rw [blk0_0, blk0_2, blk0_3]
  show _ = keysT (V c main_arg1) (V c main_v2) (V c main_v5) (((cfg0.win 6).blk t).view.emb y)
  refine congrArg _ (funext fun a => Fin.ext ?_)
  match a with
  | ⟨0, _⟩ => show (y 0).val = win0_6.index t (0 : Fin 2) * 512 + 1 * (y 0).val; omega
  | ⟨1, _⟩ => show (y 1).val = win0_6.index t (1 : Fin 2) * 100 + 1 * (y 1).val; omega

/-- What the grid point writes back to the value output is the whole of `vals` of the arrays as the region finds them. -/
theorem flushed7_eq (c : Dev nD) (t : Fin cfg0.N) :
    (dat0 V c).flushed 7 t = ((cfg0.win 7).blk t).view.read (Elt Ideal) (vals (V c main_arg2) (V c main_v3) (V c main_v6)) := by
  show (cfg0.win 7).cut (grid0.coords t) ((dat0 V c).after 7 t) = _
  rw [after0_7]
  unfold out0_7
  rw [View.canon_unit_zero hz]
  simp only [View.ld_unit_zero (S := S100x512) hz, View.ld_unit_zero (S := S512x512) hz, View.ld_unit_zero (S := S1x512) hz]
  obtain ⟨-, -, -, -, -, -, -, -, -, -, -, -, -, -, e0, e1⟩ := idx_facts t
  funext y
  refine (vals_block (iblk0 V c 1 t) (iblk0 V c 4 t) (iblk0 V c 5 t) y).trans ?_
  rw [blk0_1, blk0_4, blk0_5]
  show _ = vals (V c main_arg2) (V c main_v3) (V c main_v6) (((cfg0.win 7).blk t).view.emb y)
  refine congrArg _ (funext fun a => Fin.ext ?_)
  match a with
  | ⟨0, _⟩ => show (y 0).val = win0_7.index t (0 : Fin 2) * 100 + 1 * (y 0).val; omega
  | ⟨1, _⟩ => show (y 1).val = win0_7.index t (1 : Fin 2) * 512 + 1 * (y 1).val; omega

theorem mem_blk6 (t : Fin cfg0.N) (i : S512x100.Idx) :
    i ∈ ((cfg0.win 6).blk t).view.set ↔ ∀ a : Fin 2, win0_6.index t a * S512x100.size a ≤ (i a).val
      ∧ (i a).val < win0_6.index t a * S512x100.size a + S512x100.size a := by
  show i ∈ ((View.whole main_v7_0).slice (win0_6.rect t)).set ↔ _
  rw [View.set_slice_whole, Rect.mem_set_unit]
  exact Iff.rfl

theorem mem_blk7 (t : Fin cfg0.N) (i : S100x512.Idx) :
    i ∈ ((cfg0.win 7).blk t).view.set ↔ ∀ a : Fin 2, win0_7.index t a * S100x512.size a ≤ (i a).val
      ∧ (i a).val < win0_7.index t a * S100x512.size a + S100x512.size a := by
  show i ∈ ((View.whole main_v7_1).slice (win0_7.rect t)).set ↔ _
  rw [View.set_slice_whole, Rect.mem_set_unit]
  exact Iff.rfl

theorem cover6 (i : S512x100.Idx) : ∃ t : Fin cfg0.N, (cfg0.win 6).flush t = true ∧ i ∈ ((cfg0.win 6).blk t).view.set := by
  have hi0 : (i 0).val < 512 := (i 0).isLt
  have hi1 : (i 1).val < 100 := (i 1).isLt
  obtain ⟨-, -, -, -, -, -, -, -, -, -, -, -, e0, e1, -⟩ := idx_facts ⟨0, Nat.one_pos⟩
  refine ⟨⟨0, Nat.one_pos⟩, flush0_6 _, ?_⟩
  rw [mem_blk6]
  intro a
  match a with
  | ⟨0, _⟩ =>
    show win0_6.index ⟨0, Nat.one_pos⟩ (0 : Fin 2) * 512 ≤ (i 0).val ∧ (i 0).val < win0_6.index ⟨0, Nat.one_pos⟩ (0 : Fin 2) * 512 + 512
    omega
  | ⟨1, _⟩ =>
    show win0_6.index ⟨0, Nat.one_pos⟩ (1 : Fin 2) * 100 ≤ (i 1).val ∧ (i 1).val < win0_6.index ⟨0, Nat.one_pos⟩ (1 : Fin 2) * 100 + 100
    omega

theorem cover7 (i : S100x512.Idx) : ∃ t : Fin cfg0.N, (cfg0.win 7).flush t = true ∧ i ∈ ((cfg0.win 7).blk t).view.set := by
  have hi0 : (i 0).val < 100 := (i 0).isLt
  have hi1 : (i 1).val < 512 := (i 1).isLt
  obtain ⟨-, -, -, -, -, -, -, -, -, -, -, -, -, -, e0, e1⟩ := idx_facts ⟨0, Nat.one_pos⟩
  refine ⟨⟨0, Nat.one_pos⟩, flush0_7 _, ?_⟩
  rw [mem_blk7]
  intro a
  match a with
  | ⟨0, _⟩ =>
    show win0_7.index ⟨0, Nat.one_pos⟩ (0 : Fin 2) * 100 ≤ (i 0).val ∧ (i 0).val < win0_7.index ⟨0, Nat.one_pos⟩ (0 : Fin 2) * 100 + 100
    omega
  | ⟨1, _⟩ =>
    show win0_7.index ⟨0, Nat.one_pos⟩ (1 : Fin 2) * 512 ≤ (i 1).val ∧ (i 1).val < win0_7.index ⟨0, Nat.one_pos⟩ (1 : Fin 2) * 512 + 512
    omega

/-- The key output array after the region. -/
theorem final6 (c : Dev nD) : (dat0 V c).arrAt 6 cfg0.N = keysT (V c main_arg1) (V c main_v2) (V c main_v5) :=
  (dat0 V c).arrAt_eq_of_cover 6 _ (fun t _ => flushed6_eq V c t) cover6

/-- The value output array after the region. -/
theorem final7 (c : Dev nD) : (dat0 V c).arrAt 7 cfg0.N = vals (V c main_arg2) (V c main_v3) (V c main_v6) :=
  (dat0 V c).arrAt_eq_of_cover 7 _ (fun t _ => flushed7_eq V c t) cover7

end Cert.Region0

end
-- ==== Proof.Region1.lean ====
/-
  The main kernel: from what its body stores at one grid point to its whole output array.

  The grid has 64 points.  At point t the query block is rows 2048·t … 2048·t + 2047 of the query array, the prior
  block the same rows of the prior, the output block the same rows of the output; the weight, the bias row, the
  scaled transposed keys and the projected values are read whole at every point.  The body's stored entry (r, d) is
  a function of row r of the query block, row r of the prior block and the whole operands (`hbody`, the body read
  at an entry), so the block stored at point t is block t of one whole-array function `out1`, and the 64 blocks
  tile the output array.
-/
import proofs.«412218_j68470368633523_3_alg».proof.Proof.Gen.KernelIdeal.Frame
import proofs.«412218_j68470368633523_3_alg».proof.Proof.Spec
import Idealize.ShloMosaic.Lib.Pipeline.Value
import Idealize.ShloMosaic.Lib.ValueLayout

noncomputable section

namespace Cert.Region1

open Cert.KernelIdeal Cert.KernelIdeal.Gen Idealize.ShloMosaic Idealize.ShloMosaic.TcCoe Idealize.SL.Sem
open Idealize.ShloMosaic.ValueIdx
open Idealize.ShloMosaic.Pipeline (Dat)

/-- Row r of grid point T's block is row 2048·T + r of the array. -/
def row (T : Fin 64) (r : Fin 2048) : Fin 131072 := ⟨T.val * 2048 + r.val, by have := T.isLt; have := r.isLt; omega⟩

/-- The main kernel's output array as one function of its six operand arrays. -/
def out1 (A0 : Vec Ideal S131072x512 .f32) (A1 : Vec Ideal S512x512 .bf16) (A2 : Vec Ideal S1x512 .f32)
    (A3 : Vec Ideal S512x100 .bf16) (A4 : Vec Ideal S100x512 .bf16) (A5 : Vec Ideal S131072x100 .f32) :
    Vec Ideal S131072x512 .f32 := fun i =>
  Cert.Spec.mix
    (fun c => ∑ e : Fin 512, ((∑ j : Fin 512, A0 (ix2 (i 0) j) * A1 (ix2 j e)) + A2 (ix2 (0 : Fin 1) e)) * A3 (ix2 e c))
    (fun c => A5 (ix2 (i 0) c)) (fun c d' => A4 (ix2 c d')) (i 1)

variable (hbody : ∀ (x0 : Vec Ideal S2048x512 .f32) (x1 : Vec Ideal S512x512 .bf16) (x2 : Vec Ideal S1x512 .f32)
    (x3 : Vec Ideal S512x100 .bf16) (x4 : Vec Ideal S100x512 .bf16) (x5 : Vec Ideal S2048x100 .f32)
    (r : Fin 2048) (d : Fin 512),
    k1_pay1 (F := Ideal) (k1_pay2 x0 x1 x2 x3 x5) (k1_pay3 x0 x1 x2 x3 x5) x4 (ix2 r d)
      = Cert.Spec.mix
          (fun c => ∑ e : Fin 512, ((∑ j : Fin 512, x0 (ix2 r j) * x1 (ix2 j e)) + x2 (ix2 (0 : Fin 1) e)) * x3 (ix2 e c))
          (fun c => x5 (ix2 r c)) (fun c d' => x4 (ix2 c d')) d)

include hbody in
/-- What the body stores at a grid point whose row blocks are rows 2048·T … of the arrays and whose other blocks are
    whole arrays is the matching block of `out1`. -/
theorem block1 (x0 : Vec Ideal S2048x512 .f32) (x1 : Vec Ideal S512x512 .bf16) (x2 : Vec Ideal S1x512 .f32)
    (x3 : Vec Ideal S512x100 .bf16) (x4 : Vec Ideal S100x512 .bf16) (x5 : Vec Ideal S2048x100 .f32)
    (A0 : Vec Ideal S131072x512 .f32) (A1 : Vec Ideal S512x512 .bf16) (A2 : Vec Ideal S1x512 .f32)
    (A3 : Vec Ideal S512x100 .bf16) (A4 : Vec Ideal S100x512 .bf16) (A5 : Vec Ideal S131072x100 .f32) (T : Fin 64)
    (h0 : ∀ (r : Fin 2048) (j : Fin 512), x0 (ix2 r j) = A0 (ix2 (row T r) j))
    (h1 : x1 = A1) (h2 : x2 = A2) (h3 : x3 = A3) (h4 : x4 = A4)
    (h5 : ∀ (r : Fin 2048) (c : Fin 100), x5 (ix2 r c) = A5 (ix2 (row T r) c))
    (y : S2048x512.Idx) :
    k1_pay1 (F := Ideal) (k1_pay2 x0 x1 x2 x3 x5) (k1_pay3 x0 x1 x2 x3 x5) x4 y
      = out1 A0 A1 A2 A3 A4 A5 (ix2 (row T (y 0)) (y 1)) := by
  obtain ⟨r, d, rfl⟩ : ∃ (r : Fin 2048) (d : Fin 512), y = ix2 r d := ⟨y 0, y 1, eq_ix2 y⟩
  rw [hbody]
  subst h1 h2 h3 h4
  unfold out1
  simp only [h0, h5]

theorem hz : (![0, 0] : Fin 2 → Nat) = fun _ => 0 := funext fun a => by fin_cases a <;> rfl

/-- The printed index maps over the 64 grid points: the query, prior and output blocks move with the point along the
    rows; every other operand's block is its whole array. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- A block of a window whose index is zero on both axes is its whole array. -/
theorem blk1_1 (c : Dev nD) (t : Fin cfg1.N) : (iblk1 V c 1 t : Vec Ideal S512x512 .bf16) = V c main_v1 := by
  obtain ⟨-, -, e0, e1, -⟩ := idx_facts t
  funext y
  show V c main_v1 (((cfg1.win 1).blk t).view.emb y) = V c main_v1 y
  refine congrArg _ (funext fun a => Fin.ext ?_)
  match a with
  | ⟨0, _⟩ => show win1_1.index t (0 : Fin 2) * 512 + 1 * (y 0).val = (y 0).val; omega
  | ⟨1, _⟩ => show win1_1.index t (1 : Fin 2) * 512 + 1 * (y 1).val = (y 1).val; omega

theorem blk1_0 (c : Dev nD) (t : Fin cfg1.N) (r : Fin 2048) (j : Fin 512) :
    (iblk1 V c 0 t : Vec Ideal S2048x512 .f32) (ix2 r j) = (V c main_arg0 : Vec Ideal S131072x512 .f32) (ix2 (row t r) j) := by
  obtain ⟨e0, e1, -⟩ := idx_facts t
  show V c main_arg0 (((cfg1.win 0).blk t).view.emb (ix2 r j)) = V c main_arg0 (ix2 (row t r) j)
  refine congrArg _ (funext fun a => Fin.ext ?_)
  match a with
  | ⟨0, _⟩ => show win1_0.index t (0 : Fin 2) * 2048 + 1 * r.val = t.val * 2048 + r.val; omega
  | ⟨1, _⟩ => show win1_0.index t (1 : Fin 2) * 512 + 1 * j.val = j.val; omega

theorem blk1_2 (c : Dev nD) (t : Fin cfg1.N) : (iblk1 V c 2 t : Vec Ideal S1x512 .f32) = V c main_v4 := by
  obtain ⟨-, -, -, -, e0, e1, -⟩ := idx_facts t
  funext y
  show V c main_v4 (((cfg1.win 2).blk t).view.emb y) = V c main_v4 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 512 + 1 * (y 1).val = (y 1).val; omega

theorem blk1_3 (c : Dev nD) (t : Fin cfg1.N) : (iblk1 V c 3 t : Vec Ideal S512x100 .bf16) = V c main_v7_0 := by
  obtain ⟨-, -, -, -, -, -, e0, e1, -⟩ := idx_facts t
  funext y
  show V c main_v7_0 (((cfg1.win 3).blk t).view.emb y) = V c main_v7_0 y
  refine congrArg _ (funext fun a => Fin.ext ?_)
  match a with
  | ⟨0, _⟩ => show win1_3.index t (0 : Fin 2) * 512 + 1 * (y 0).val = (y 0).val; omega
  | ⟨1, _⟩ => show win1_3.index t (1 : Fin 2) * 100 + 1 * (y 1).val = (y 1).val; omega

theorem blk1_4 (c : Dev nD) (t : Fin cfg1.N) : (iblk1 V c 4 t : Vec Ideal S100x512 .bf16) = V c main_v7_1 := by
  obtain ⟨-, -, -, -, -, -, -, -, e0, e1, -⟩ := idx_facts t
  funext y
  show V c main_v7_1 (((cfg1.win 4).blk t).view.emb y) = V c main_v7_1 y
  refine congrArg _ (funext fun a => Fin.ext ?_)
  match a with
  | ⟨0, _⟩ => show win1_4.index t (0 : Fin 2) * 100 + 1 * (y 0).val = (y 0).val; omega
  | ⟨1, _⟩ => show win1_4.index t (1 : Fin 2) * 512 + 1 * (y 1).val = (y 1).val; omega

theorem blk1_5 (c : Dev nD) (t : Fin cfg1.N) (r : Fin 2048) (j : Fin 100) :
    (iblk1 V c 5 t : Vec Ideal S2048x100 .f32) (ix2 r j) = (V c main_arg3 : Vec Ideal S131072x100 .f32) (ix2 (row t r) j) := by
  obtain ⟨-, -, -, -, -, -, -, -, -, -, e0, e1, -⟩ := idx_facts t
  show V c main_arg3 (((cfg1.win 5).blk t).view.emb (ix2 r j)) = V c main_arg3 (ix2 (row t r) j)
  refine congrArg _ (funext fun a => Fin.ext ?_)
  match a with
  | ⟨0, _⟩ => show win1_5.index t (0 : Fin 2) * 2048 + 1 * r.val = t.val * 2048 + r.val; omega
  | ⟨1, _⟩ => show win1_5.index t (1 : Fin 2) * 100 + 1 * j.val = j.val; omega

include hbody in
/-- What grid point t writes back is block t of `out1` of the arrays as the region finds them. -/
theorem flushed_eq (c : Dev nD) (t : Fin cfg1.N) :
    (dat1 V c).flushed 6 t = ((cfg1.win 6).blk t).view.read (Elt Ideal)
      (out1 (V c main_arg0) (V c main_v1) (V c main_v4) (V c main_v7_0) (V c main_v7_1) (V c main_arg3)) := by
  show (cfg1.win 6).cut (grid1.coords t) ((dat1 V c).after 6 t) = _
  rw [after1_6]
  unfold out1_6
  rw [View.canon_unit_zero hz]
  simp only [View.ld_unit_zero (S := S2048x512) hz, View.ld_unit_zero (S := S512x512) hz, View.ld_unit_zero (S := S1x512) hz,
    View.ld_unit_zero (S := S512x100) hz, View.ld_unit_zero (S := S100x512) hz, View.ld_unit_zero (S := S2048x100) hz]
  obtain ⟨-, -, -, -, -, -, -, -, -, -, -, -, e0, e1⟩ := idx_facts t
  funext y
  refine (block1 hbody (iblk1 V c 0 t) (iblk1 V c 1 t) (iblk1 V c 2 t) (iblk1 V c 3 t) (iblk1 V c 4 t) (iblk1 V c 5 t)
    (V c main_arg0) (V c main_v1) (V c main_v4) (V c main_v7_0) (V c main_v7_1) (V c main_arg3) t
    (blk1_0 V c t) (blk1_1 V c t) (blk1_2 V c t) (blk1_3 V c t) (blk1_4 V c t) (blk1_5 V c t) y).trans ?_
  show _ = out1 (V c main_arg0) (V c main_v1) (V c main_v4) (V c main_v7_0) (V c main_v7_1) (V c main_arg3) (((cfg1.win 6).blk t).view.emb y)
  refine congrArg _ (funext fun a => Fin.ext ?_)
  match a with
  | ⟨0, _⟩ => show t.val * 2048 + (y 0).val = win1_6.index t (0 : Fin 2) * 2048 + 1 * (y 0).val; omega
  | ⟨1, _⟩ => show (y 1).val = win1_6.index t (1 : Fin 2) * 512 + 1 * (y 1).val; omega

/-- An index of the array is in point t's block iff each coordinate is in the block's range on its axis. -/
theorem mem_blk (t : Fin cfg1.N) (i : S131072x512.Idx) :
    i ∈ ((cfg1.win 6).blk t).view.set ↔ ∀ a : Fin 2, win1_6.index t a * S2048x512.size a ≤ (i a).val
      ∧ (i a).val < win1_6.index t a * S2048x512.size a + S2048x512.size a := by
  show i ∈ ((View.whole main_v8).slice (win1_6.rect t)).set ↔ _
  rw [View.set_slice_whole, Rect.mem_set_unit]
  exact Iff.rfl

/-- Every row of the output array lies in the block of the grid point row / 2048. -/
theorem cover (i : S131072x512.Idx) :
    ∃ t : Fin cfg1.N, (cfg1.win 6).flush t = true ∧ i ∈ ((cfg1.win 6).blk t).view.set := by
  have hi0 : (i 0).val < 131072 := (i 0).isLt
  have hi1 : (i 1).val < 512 := (i 1).isLt
  have ht : (i 0).val / 2048 < 64 := by omega
  obtain ⟨-, -, -, -, -, -, -, -, -, -, -, -, e0, e1⟩ := idx_facts ⟨(i 0).val / 2048, ht⟩
  refine ⟨⟨(i 0).val / 2048, ht⟩, flush1_6 _, ?_⟩
  rw [mem_blk]
  intro a
  match a with
  | ⟨0, _⟩ =>
    show win1_6.index ⟨(i 0).val / 2048, ht⟩ (0 : Fin 2) * 2048 ≤ (i 0).val
      ∧ (i 0).val < win1_6.index ⟨(i 0).val / 2048, ht⟩ (0 : Fin 2) * 2048 + 2048
    have e0' : win1_6.index ⟨(i 0).val / 2048, ht⟩ (0 : Fin 2) = (i 0).val / 2048 := e0
    omega
  | ⟨1, _⟩ =>
    show win1_6.index ⟨(i 0).val / 2048, ht⟩ (1 : Fin 2) * 512 ≤ (i 1).val
      ∧ (i 1).val < win1_6.index ⟨(i 0).val / 2048, ht⟩ (1 : Fin 2) * 512 + 512
    omega

include hbody in
/-- The output array after the region: `out1` of the arrays as the region finds them. -/
theorem final (c : Dev nD) :
    (dat1 V c).arrAt 6 cfg1.N
      = out1 (V c main_arg0) (V c main_v1) (V c main_v4) (V c main_v7_0) (V c main_v7_1) (V c main_arg3) :=
  (dat1 V c).arrAt_eq_of_cover 6 _ (fun t _ => flushed_eq hbody V c t) cover

end Cert.Region1

end
-- ==== Proof.Chain.lean ====
/-
  From the two regions to the program's result.

  The host operations before the first region transpose the three weights and view the three biases as rows; the
  first region then leaves the scaled transposed projected keys and the projected values; the second region reads
  the query array, the transposed query weight, its bias row, those two arrays and the prior, and leaves the result.
  Reading each array back through the regions to the launch memory, and the transposes and row views at an index,
  the result array is `Cert.Spec.Gpre` of the ten argument arrays.
-/
import proofs.«412218_j68470368633523_3_alg».proof.Proof.Region0
import proofs.«412218_j68470368633523_3_alg».proof.Proof.Region1
import Idealize.ShloMosaic.Lib.StableHlo.Run

noncomputable section

namespace Cert.Chain

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Region0 Cert.Region1

/-- A projection written with the transposed weight and the bias viewed as a row is the projection. -/
theorem proj_eq {M : Nat} (x : Cert.Spec.Arr2 M 512) (W : Cert.Spec.Arr2 512 512) (b : Cert.Spec.Arr1 512)
    (hT : S512x512.Transposes [1, 0] S512x512) (hC : S512.ShapeCasts S1x512) (n : Fin M) (e : Fin 512) :
    (∑ j : Fin 512, x (ix2 n j) * transpose S512x512 [1, 0] W hT (ix2 j e)) + shapeCast S1x512 b hC (ix2 (0 : Fin 1) e)
      = Cert.Spec.proj x W b n e := by
  unfold Cert.Spec.proj
  rw [shapeCast_a_1a_apply]
  refine congrArg (· + b (ix1 e)) (Finset.sum_congr rfl fun j _ => ?_)
  rw [transpose_ix2_apply]

/-- The second region's function of the first region's outputs and the host-prepared operands is `Gpre`. -/
theorem out1_eq (q : Vec Ideal S131072x512 .f32) (k v : Vec Ideal S100x512 .f32) (cp : Vec Ideal S131072x100 .f32)
    (Wq : Vec Ideal S512x512 .f32) (bq : Vec Ideal S512 .f32) (Wk : Vec Ideal S512x512 .f32) (bk : Vec Ideal S512 .f32)
    (Wv : Vec Ideal S512x512 .f32) (bv : Vec Ideal S512 .f32)
    (hT : S512x512.Transposes [1, 0] S512x512) (hC : S512.ShapeCasts S1x512) :
    out1 q (transpose S512x512 [1, 0] Wq hT) (shapeCast S1x512 bq hC)
        (keysT k (transpose S512x512 [1, 0] Wk hT) (shapeCast S1x512 bk hC))
        (vals v (transpose S512x512 [1, 0] Wv hT) (shapeCast S1x512 bv hC)) cp
      = Cert.Spec.Gpre q k v cp Wq bq Wk bk Wv bv := by
  funext i
  unfold out1 Cert.Spec.Gpre
  have h1 : (fun c : Fin 100 => ∑ e : Fin 512,
        ((∑ j : Fin 512, q (ix2 (i 0) j) * transpose S512x512 [1, 0] Wq hT (ix2 j e)) + shapeCast S1x512 bq hC (ix2 (0 : Fin 1) e))
          * keysT k (transpose S512x512 [1, 0] Wk hT) (shapeCast S1x512 bk hC) (ix2 e c))
      = fun c : Fin 100 => ∑ e : Fin 512, Cert.Spec.proj q Wq bq (i 0) e * (Cert.Spec.proj k Wk bk c e * Cert.Spec.scale) := by
    funext c
    refine Finset.sum_congr rfl fun e _ => ?_
    exact congrArg₂ (· * ·) (proj_eq q Wq bq hT hC (i 0) e)
      (congrArg (· * Cert.Spec.scale) (proj_eq k Wk bk hT hC c e))
  have h3 : (fun (c : Fin 100) (d' : Fin 512) => vals v (transpose S512x512 [1, 0] Wv hT) (shapeCast S1x512 bv hC) (ix2 c d'))
      = Cert.Spec.proj v Wv bv := by
    funext c d'
    exact proj_eq v Wv bv hT hC c d'
  rw [h1, h3]

variable (m : (ℓ : Loc nD τ sig) → Buf (Elt Ideal) ℓ) (ρ : Dev nD → PrngReg)

/-! ## The arrays the first region finds -/

theorem V1_arg1 (c : Dev nD) : V1 m ρ c main_arg1 = m ((c : Thread nD τ).loc main_arg1) := by
  dsimp only [V1, W1, W0, hostOps0]; after_results
theorem V1_arg2 (c : Dev nD) : V1 m ρ c main_arg2 = m ((c : Thread nD τ).loc main_arg2) := by
  dsimp only [V1, W1, W0, hostOps0]; after_results
theorem V1_v2 (c : Dev nD) : (V1 m ρ c main_v2 : Vec Ideal S512x512 .f32)
    = transpose S512x512 [1, 0] (m ((c : Thread nD τ).loc main_arg6)) transposes_S512x512_S512x512_1_0 := by
  dsimp only [V1, W1, W0, hostOps0]; after_results
theorem V1_v3 (c : Dev nD) : (V1 m ρ c main_v3 : Vec Ideal S512x512 .f32)
    = transpose S512x512 [1, 0] (m ((c : Thread nD τ).loc main_arg8)) transposes_S512x512_S512x512_1_0 := by
  dsimp only [V1, W1, W0, hostOps0]; after_results
theorem V1_v5 (c : Dev nD) : (V1 m ρ c main_v5 : Vec Ideal S1x512 .f32)
    = shapeCast S1x512 (m ((c : Thread nD τ).loc main_arg7)) shapeCasts_S512_S1x512 := by
  dsimp only [V1, W1, W0, hostOps0]; after_results; rfl
theorem V1_v6 (c : Dev nD) : (V1 m ρ c main_v6 : Vec Ideal S1x512 .f32)
    = shapeCast S1x512 (m ((c : Thread nD τ).loc main_arg9)) shapeCasts_S512_S1x512 := by
  dsimp only [V1, W1, W0, hostOps0]; after_results; rfl

/-! ## The arrays the second region finds -/

theorem V2_arg0 (c : Dev nD) : V2 m ρ c main_arg0 = m ((c : Thread nD τ).loc main_arg0) := by
  refine (W2_of_ne m ρ c main_arg0 (by decide)).trans ?_
  dsimp only [W1, W0, hostOps0]; after_results
theorem V2_arg3 (c : Dev nD) : V2 m ρ c main_arg3 = m ((c : Thread nD τ).loc main_arg3) := by
  refine (W2_of_ne m ρ c main_arg3 (by decide)).trans ?_
  dsimp only [W1, W0, hostOps0]; after_results
theorem V2_v1 (c : Dev nD) : (V2 m ρ c main_v1 : Vec Ideal S512x512 .bf16)
    = transpose S512x512 [1, 0] (m ((c : Thread nD τ).loc main_arg4)) transposes_S512x512_S512x512_1_0 := by
  refine (W2_of_ne m ρ c main_v1 (by decide)).trans ?_
  dsimp only [W1, W0, hostOps0]; after_results; rfl
theorem V2_v4 (c : Dev nD) : (V2 m ρ c main_v4 : Vec Ideal S1x512 .f32)
    = shapeCast S1x512 (m ((c : Thread nD τ).loc main_arg5)) shapeCasts_S512_S1x512 := by
  refine (W2_of_ne m ρ c main_v4 (by decide)).trans ?_
  dsimp only [W1, W0, hostOps0]; after_results; rfl
theorem V2_v7_0 (c : Dev nD) : (V2 m ρ c main_v7_0 : Vec Ideal S512x100 .bf16)
    = keysT (m ((c : Thread nD τ).loc main_arg1))
        (transpose S512x512 [1, 0] (m ((c : Thread nD τ).loc main_arg6)) transposes_S512x512_S512x512_1_0)
        (shapeCast S1x512 (m ((c : Thread nD τ).loc main_arg7)) shapeCasts_S512_S1x512) := by
  refine (W2_arr m ρ c 6).trans ((Cert.Region0.final6 (V1 m ρ) c).trans ?_)
  rw [V1_arg1, V1_v2, V1_v5]
theorem V2_v7_1 (c : Dev nD) : (V2 m ρ c main_v7_1 : Vec Ideal S100x512 .bf16)
    = vals (m ((c : Thread nD τ).loc main_arg2))
        (transpose S512x512 [1, 0] (m ((c : Thread nD τ).loc main_arg8)) transposes_S512x512_S512x512_1_0)
        (shapeCast S1x512 (m ((c : Thread nD τ).loc main_arg9)) shapeCasts_S512_S1x512) := by
  refine (W2_arr m ρ c 7).trans ((Cert.Region0.final7 (V1 m ρ) c).trans ?_)
  rw [V1_arg2, V1_v3, V1_v6]

/-! ## The result -/

variable (hbody : ∀ (x0 : Vec Ideal S2048x512 .f32) (x1 : Vec Ideal S512x512 .bf16) (x2 : Vec Ideal S1x512 .f32)
    (x3 : Vec Ideal S512x100 .bf16) (x4 : Vec Ideal S100x512 .bf16) (x5 : Vec Ideal S2048x100 .f32)
    (r : Fin 2048) (d : Fin 512),
    k1_pay1 (F := Ideal) (k1_pay2 x0 x1 x2 x3 x5) (k1_pay3 x0 x1 x2 x3 x5) x4 (ix2 r d)
      = Cert.Spec.mix
          (fun c => ∑ e : Fin 512, ((∑ j : Fin 512, x0 (ix2 r j) * x1 (ix2 j e)) + x2 (ix2 (0 : Fin 1) e)) * x3 (ix2 e c))
          (fun c => x5 (ix2 r c)) (fun c d' => x4 (ix2 c d')) d)

include hbody in
/-- The result array at the end of @main is `Gpre` of the argument arrays as launched. -/
theorem result_eq (c : Dev nD) :
    W3 m ρ c (Proc.devRef .tc main_v8)
      = Cert.Spec.Gpre (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) := by
  refine (W3_arr m ρ c 6).trans ((Cert.Region1.final hbody (V2 m ρ) c).trans ?_)
  rw [V2_arg0, V2_arg3, V2_v1, V2_v4, V2_v7_0, V2_v7_1]
  exact out1_eq _ _ _ _ _ _ _ _ _ _ _ _

end Cert.Chain

end
-- ==== Proof.LibColumn.lean ====
/-
  A column kept after a sum over the last axis, read at an index.

  A length-a vector viewed as an a × 1 column reads, at (i, 0), the vector at i; an a × 1 column repeated along
  b columns reads, at (i, j), the column at (i, 0), whatever j. Together they say that a row total broadcast
  back over its row is that total at every column.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, q)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Body1.lean ====
/-
  The main kernel's body, read at one entry of its output block.

  The body applies one text three times: from a 2048 × 100 array it takes every row's maximum (from −∞), subtracts it
  from the row, exponentiates, totals each row of the result and divides by that total.  Read at (r, c), each piece is
  what the specification's softmax of row r says: the maximum along the columns at row r is the largest entry of that
  row, the total is the sum over the 100 classes, and a per-row quantity viewed as a column and repeated along the row
  is that quantity at every column.  The first softmax is taken of the scores — the query block times the weight
  block, plus the bias row, times the scaled transposed keys, every product read as a sum over the contracted
  position —, the second of the prior block, the third of their class-by-class product; the stored block is the third
  times the value block.  A change of format is the identity on extended reals and a reshape to the same shape changes
  nothing, so entry (r, d) of the stored block is the specification's mix of row r.
-/
import proofs.«412218_j68470368633523_3_alg».proof.Proof.Gen.KernelIdeal.Skeleton
import proofs.«412218_j68470368633523_3_alg».proof.Proof.Spec
import proofs.«412218_j68470368633523_3_alg».proof.Proof.LibDotPlain
import proofs.«412218_j68470368633523_3_alg».proof.Proof.LibColumn
import Idealize.ShloMosaic.Lib.Pipeline.Value
import Idealize.ShloMosaic.Lib.ValueLayout

noncomputable section

namespace Cert.Body1

open Cert.KernelIdeal Cert.KernelIdeal.Gen Idealize.ShloMosaic Idealize.ShloMosaic.ValueIdx

variable [Cert.KernelIdeal.Facts]

/-- Over row r of a 2048 × 100 array, the index that a reduction along the columns reads at position k is (r, k). -/
theorem lift_row (h : S2048x100.Reduces [1] S2048) (r : Fin 2048) (k : Fin 100) :
    h.lift (ix1 r) k = ix2 r k :=
  funext fun c => Fin.ext (by match c with | ⟨0, _⟩ => rfl | ⟨1, _⟩ => rfl)

/-- The maximum along the columns, from −∞, read at row r: the largest entry of that row. -/
theorem max_apply (x : FVec Ideal S2048x100 .f32) (h : S2048x100.Reduces [1] S2048) (hφ : FKind.Formats .f32)
    (hacc : (0xFF800000#32 : BitVec (FTy.bits .f32)) = FKind.maximumf.neutral .f32 hφ) (r : Fin 2048) :
    multiReduction (F := Ideal) .maximumf [1] S2048 x 0xFF800000#32 h hφ hacc (ix1 r)
      = Cert.Spec.rowMax (fun c => x (ix2 r c)) := by
  refine (Ideal.multiReduction_maximumf_single x _ h hφ hacc (ix1 r)).trans ?_
  have e : (x ∘ h.lift (ix1 r)) = fun c : Fin 100 => x (ix2 r c) := funext fun c => congrArg x (lift_row h r c)
  show (Finset.univ : Finset (Fin 100)).fold max (Ideal.ofBits .f32 0xFF800000#32) (x ∘ h.lift (ix1 r)) = _
  rw [e, Cert.Spec.ofBits_neg_inf]
  rfl

/-- The sum along the columns, from 0, read at row r: the total of that row. -/
theorem sum_apply (x : FVec Ideal S2048x100 .f32) (h : S2048x100.Reduces [1] S2048) (hφ : FKind.Formats .f32)
    (hacc : (0x00000000#32 : BitVec (FTy.bits .f32)) = FKind.add.neutral .f32 hφ) (r : Fin 2048) :
    multiReduction (F := Ideal) .add [1] S2048 x 0x00000000#32 h hφ hacc (ix1 r)
      = ∑ c : Fin 100, x (ix2 r c) := by
  refine (Ideal.multiReduction_add_single x _ h hφ hacc (ix1 r)).trans ?_
  show (∑ k : Fin 100, x (h.lift (ix1 r) k)) = _
  exact Finset.sum_congr rfl fun c _ => congrArg x (lift_row h r c)

/-- A per-row quantity viewed as a column and repeated along the 100 columns reads, at (r, c), that row's quantity. -/
theorem col_apply (m : FVec Ideal S2048 .f32) (hs : S2048.ShapeCasts S2048x1) (hb : S2048x1.Broadcasts S2048x100)
    (r : Fin 2048) (c : Fin 100) :
    broadcastTo S2048x100 (shapeCast S2048x1 m hs) hb (ix2 r c) = m (ix1 r) :=
  (Cert.LibColumn.broadcastTo_a1_ab_apply _ hb r c).trans (Cert.LibColumn.shapeCast_a_a1_apply m hs r 0)

/-- The numerator of the row softmax as the body computes it: every entry minus its row's maximum, exponentiated. -/
def expShift (x : FVec Ideal S2048x100 .f32) : FVec Ideal S2048x100 .f32 :=
  exp (subf x (broadcastTo S2048x100 (shapeCast S2048x1
    (multiReduction .maximumf [1] S2048 x 0xFF800000#32 reduces_S2048x100_S2048 (.inl rfl) rfl)
    shapeCasts_S2048_S2048x1) broadcasts_S2048x1_S2048x100))

/-- Every row's total, repeated along the row. -/
def rowTotal (e : FVec Ideal S2048x100 .f32) : FVec Ideal S2048x100 .f32 :=
  broadcastTo S2048x100 (shapeCast S2048x1
    (multiReduction .add [1] S2048 e 0x00000000#32 reduces_S2048x100_S2048 (.inl rfl) rfl)
    shapeCasts_S2048_S2048x1) broadcasts_S2048x1_S2048x100

/-- The row softmax as the body computes it: the numerator over its row's total. -/
def rowSoftmax (x : FVec Ideal S2048x100 .f32) : FVec Ideal S2048x100 .f32 :=
  divf (expShift x) (rowTotal (expShift x))

/-- The numerator at (r, c): exp of the entry minus the row's maximum. -/
theorem expShift_apply (x : FVec Ideal S2048x100 .f32) (r : Fin 2048) (c : Fin 100) :
    expShift x (ix2 r c) = Ideal.exp (x (ix2 r c) - Cert.Spec.rowMax (fun c' => x (ix2 r c'))) := by
  unfold expShift
  show Ideal.exp (x (ix2 r c) - broadcastTo S2048x100 _ _ (ix2 r c)) = _
  rw [col_apply]
  exact congrArg (fun m => Ideal.exp (x (ix2 r c) - m)) (max_apply x _ _ _ r)

/-- The repeated row total at (r, c): the sum of row r. -/
theorem rowTotal_apply (e : FVec Ideal S2048x100 .f32) (r : Fin 2048) (c : Fin 100) :
    rowTotal e (ix2 r c) = ∑ c' : Fin 100, e (ix2 r c') := by
  unfold rowTotal
  exact (col_apply _ _ _ r c).trans (sum_apply e _ _ _ r)

/-- The body's row softmax at (r, c) is the specification's softmax of row r at class c. -/
theorem rowSoftmax_apply (x : FVec Ideal S2048x100 .f32) (r : Fin 2048) (c : Fin 100) :
    rowSoftmax x (ix2 r c) = Cert.Spec.softmax (fun c' => x (ix2 r c')) c := by
  unfold rowSoftmax Cert.Spec.softmax
  show Ideal.div (expShift x (ix2 r c)) (rowTotal (expShift x) (ix2 r c)) = _
  rw [rowTotal_apply, expShift_apply]
  exact congrArg (Ideal.div _) (Finset.sum_congr rfl fun c' _ => expShift_apply x r c')

/-- The scores as the body computes them: the query block projected (a product with the weight block plus the bias
    row), then multiplied by the scaled transposed keys. -/
def scores (x0 : Vec Ideal S2048x512 .f32) (x1 : Vec Ideal S512x512 .bf16) (x2 : Vec Ideal S1x512 .f32)
    (x3 : Vec Ideal S512x100 .bf16) : FVec Ideal S2048x100 .f32 :=
  matmul dot_S2048x512_S512x100_S2048x100_1_0_0_1_n_n none
    (truncf .bf16
      (addf
        (matmul dot_S2048x512_S512x512_S2048x512_1_0_0_1_n_n none (truncf .bf16 x0 bitsLt_bf16_f32)
          (shapeCast S512x512 x1 shapeCasts_S512x512_S512x512 : FVec Ideal S512x512 .bf16)
          (constant S2048x512 .f32 0x00000000#32))
        (broadcastTo S2048x512 (shapeCast S1x512 x2 shapeCasts_S1x512_S1x512 : FVec Ideal S1x512 .f32)
          broadcasts_S1x512_S2048x512))
      bitsLt_bf16_f32)
    (shapeCast S512x100 x3 shapeCasts_S512x100_S512x100 : FVec Ideal S512x100 .bf16)
    (constant S2048x100 .f32 0x00000000#32)

/-- The second payload is the numerator of the third softmax, taken of the product of the first two. -/
theorem pay2_eq (x0 : Vec Ideal S2048x512 .f32) (x1 : Vec Ideal S512x512 .bf16) (x2 : Vec Ideal S1x512 .f32)
    (x3 : Vec Ideal S512x100 .bf16) (x5 : Vec Ideal S2048x100 .f32) :
    k1_pay2 (F := Ideal) x0 x1 x2 x3 x5 = expShift (mulf (rowSoftmax (scores x0 x1 x2 x3)) (rowSoftmax x5)) := rfl

/-- The third payload is that numerator's row total. -/
theorem pay3_eq (x0 : Vec Ideal S2048x512 .f32) (x1 : Vec Ideal S512x512 .bf16) (x2 : Vec Ideal S1x512 .f32)
    (x3 : Vec Ideal S512x100 .bf16) (x5 : Vec Ideal S2048x100 .f32) :
    k1_pay3 (F := Ideal) x0 x1 x2 x3 x5 = rowTotal (k1_pay2 x0 x1 x2 x3 x5) := rfl

/-- The scores at (r, c): row r of the projected queries against column c of the scaled transposed keys. -/
theorem scores_apply (x0 : Vec Ideal S2048x512 .f32) (x1 : Vec Ideal S512x512 .bf16) (x2 : Vec Ideal S1x512 .f32)
    (x3 : Vec Ideal S512x100 .bf16) (r : Fin 2048) (c : Fin 100) :
    scores x0 x1 x2 x3 (ix2 r c)
      = ∑ e : Fin 512, ((∑ j : Fin 512, x0 (ix2 r j) * x1 (ix2 j e)) + x2 (ix2 (0 : Fin 1) e)) * x3 (ix2 e c) := by
  unfold scores
  rw [shapeCast_self, shapeCast_self, shapeCast_self]
  refine (Cert.LibDot.mm_plain 2048 512 100 (φ₂ := .bf16) _ _ r c).trans ?_
  refine Finset.sum_congr rfl fun e _ => ?_
  refine congrArg (· * x3 (ix2 e c)) ?_
  show matmul (F := Ideal) _ none _ _ _ (ix2 r e) + broadcastTo S2048x512 _ _ (ix2 r e) = _
  rw [broadcastTo_1b_ab_apply]
  exact congrArg (· + x2 (ix2 (0 : Fin 1) e)) (Cert.LibDot.mm_plain 2048 512 512 (φ₂ := .bf16) _ _ r e)

/-- Entry (r, d) of the block the body stores, from the six blocks it loads: row r of the query block is projected,
    scored against the scaled transposed keys, mixed with row r of the prior and weighs the value rows. -/
theorem body1_apply (x0 : Vec Ideal S2048x512 .f32) (x1 : Vec Ideal S512x512 .bf16) (x2 : Vec Ideal S1x512 .f32)
    (x3 : Vec Ideal S512x100 .bf16) (x4 : Vec Ideal S100x512 .bf16) (x5 : Vec Ideal S2048x100 .f32)
    (r : Fin 2048) (d : Fin 512) :
    k1_pay1 (F := Ideal) (k1_pay2 x0 x1 x2 x3 x5) (k1_pay3 x0 x1 x2 x3 x5) x4 (ix2 r d)
      = Cert.Spec.mix
          (fun c => ∑ e : Fin 512, ((∑ j : Fin 512, x0 (ix2 r j) * x1 (ix2 j e)) + x2 (ix2 (0 : Fin 1) e)) * x3 (ix2 e c))
          (fun c => x5 (ix2 r c)) (fun c d' => x4 (ix2 c d')) d := by
  -- the stored block is the product of the third softmax with the value block
  have h1 : k1_pay1 (F := Ideal) (k1_pay2 x0 x1 x2 x3 x5) (k1_pay3 x0 x1 x2 x3 x5) x4 (ix2 r d)
      = ∑ c : Fin 100,
          rowSoftmax (mulf (rowSoftmax (scores x0 x1 x2 x3)) (rowSoftmax x5)) (ix2 r c) * x4 (ix2 c d) := by
    rw [pay3_eq, pay2_eq]
    unfold k1_pay1
    rw [shapeCast_self]
    exact Cert.LibDot.mm_plain 2048 100 512 (φ₂ := .bf16) _ _ r d
  rw [h1]
  unfold Cert.Spec.mix
  refine Finset.sum_congr rfl fun c _ => ?_
  refine congrArg (· * x4 (ix2 c d)) ?_
  -- the third softmax, of the class-by-class product of the first two
  rw [rowSoftmax_apply]
  refine congrArg (fun f => Cert.Spec.softmax f c) (funext fun c' => ?_)
  show rowSoftmax (scores x0 x1 x2 x3) (ix2 r c') * rowSoftmax x5 (ix2 r c') = _
  rw [rowSoftmax_apply, rowSoftmax_apply]
  exact congrArg (fun f => Cert.Spec.softmax f c' * Cert.Spec.softmax (fun c'' => x5 (ix2 r c'')) c')
    (funext fun c'' => scores_apply x0 x1 x2 x3 r c'')

end Cert.Body1

end
-- ==== Proof.RefValue.lean ====
/-
  The reference program's result, read entry by entry, is the function `Cert.Spec.G` of its ten argument arrays.

  The three softmaxes of the program are one and the same chain of operations over three operands: the row maximum
  from −∞ (a fold of max over the 100 classes, then max with −∞ once more, which changes nothing), the difference,
  the exponential, the row sum from zero, the quotient.  That chain is read once over an abstract operand
  (`stSoftmax_apply`: at (n, c) it is the softmax of row n at class c) and used three times.  Around it: each of the
  three projections at an index is Σⱼ x(i, j) · W(d, j) + b(d) (the transposed weight read back at (d, j), the bias
  spread along the rows), the scores are the sum over the 512 features of projected query times projected key, times
  the scale constant, and the last stage sums the third softmax against the projected values over the 100 classes.
-/
import proofs.«412218_j68470368633523_3_alg».proof.Proof.Gen.ReferenceIdeal.Read
import proofs.«412218_j68470368633523_3_alg».proof.Proof.Spec
import Idealize.ShloMosaic.PureOps.Reduce

noncomputable section

namespace Cert.RefValue

open Cert.ReferenceIdeal Cert.ReferenceIdeal.Read Idealize.ShloMosaic Idealize.ShloMosaic.ValueIdx
open Cert.ReferenceIdeal.Gen

/-- The exponential of an array at an index is the exponential of the entry. -/
theorem hostExp_apply {s : Shape} (a : FVec Ideal s .f32) (i : s.Idx) : Host.exp a i = Ideal.exp (a i) := rfl
/-- The quotient of two arrays at an index is the quotient of the entries. -/
theorem hostDivf_apply {s : Shape} (a b : FVec Ideal s .f32) (i : s.Idx) : Host.divf a b i = Ideal.div (a i) (b i) := rfl

/-! ## One softmax stage over an abstract operand -/

/-- A column of 131072 entries spread along 100 classes reads, at (n, c), the column's entry n. -/
theorem column_apply (z : (⟨S131072, .f32⟩ : BufTy).Contents (Elt Ideal)) (n : Fin 131072) (c : Fin 100) :
    broadcastInDim S131072x100 ![0, 1] bcast_S131072x1_S131072x100_0_1
      (broadcastInDim S131072x1 ![0] bcast_S131072_S131072x1_0 z) (ix2 n c) = z (ix1 n) := by
  rw [broadcastInDim_apply _ bcast_S131072x1_S131072x100_0_1 _ (ix2 n c) (ix2 n (0 : Fin 1)) (fun a => match a with
    | ⟨0, _⟩ => by show n.val = if (131072 : Nat) = 1 then 0 else n.val; rw [if_neg (by decide)]
    | ⟨1, _⟩ => by show 0 = if (1 : Nat) = 1 then 0 else c.val; rw [if_pos rfl])]
  exact broadcastInDim_apply _ bcast_S131072_S131072x1_0 z (ix2 n (0 : Fin 1)) (ix1 n) (fun a => match a with
    | ⟨0, _⟩ => by show n.val = if (131072 : Nat) = 1 then 0 else n.val; rw [if_neg (by decide)])

/-- The row maximum as the program takes it: the fold of max from −∞ over the row, then max with −∞ once more. -/
def stMax (y : (⟨S131072x100, .f32⟩ : BufTy).Contents (Elt Ideal)) : (⟨S131072, .f32⟩ : BufTy).Contents (Elt Ideal) :=
  maximumf (broadcastInDim S131072 ![] bcast_S_S131072 (constant (F := Ideal) S_ .f32 0xFF800000#32))
    (Host.reduce FloatOps.maximumf y (constant (F := Ideal) S_ .f32 0xFF800000#32) reducesTo_S131072x100_S131072_d1 h_S_)

/-- The exponentials of the row's entries less the row maximum. -/
def stExp (y : (⟨S131072x100, .f32⟩ : BufTy).Contents (Elt Ideal)) : (⟨S131072x100, .f32⟩ : BufTy).Contents (Elt Ideal) :=
  Host.exp (F := Ideal) (φ := .f32) (subf y (broadcastInDim S131072x100 ![0, 1] bcast_S131072x1_S131072x100_0_1
    (broadcastInDim S131072x1 ![0] bcast_S131072_S131072x1_0 (stMax y))))

/-- The row sums of the exponentials, from zero. -/
def stSum (y : (⟨S131072x100, .f32⟩ : BufTy).Contents (Elt Ideal)) : (⟨S131072, .f32⟩ : BufTy).Contents (Elt Ideal) :=
  Host.reduceAdd (stExp y) (constant (F := Ideal) S_ .f32 0x00000000#32) reducesTo_S131072x100_S131072_d1 h_S_

/-- The softmax stage: the exponentials over their row sums. -/
def stSoftmax (y : (⟨S131072x100, .f32⟩ : BufTy).Contents (Elt Ideal)) : (⟨S131072x100, .f32⟩ : BufTy).Contents (Elt Ideal) :=
  Host.divf (F := Ideal) (φ := .f32) (stExp y) (broadcastInDim S131072x100 ![0, 1] bcast_S131072x1_S131072x100_0_1
    (broadcastInDim S131072x1 ![0] bcast_S131072_S131072x1_0 (stSum y)))

/-- The maximum stage at row n is the row's maximum from −∞. -/
theorem stMax_apply (y : (⟨S131072x100, .f32⟩ : BufTy).Contents (Elt Ideal)) (n : Fin 131072) :
    stMax y (ix1 n) = Cert.Spec.rowMax (fun c => y (ix2 n c)) := by
  unfold stMax
  rw [maximumf_apply, broadcastInDim_apply _ bcast_S_S131072 _ (ix1 n) ix0 (fun a => a.elim0), constant_apply,
    Cert.Spec.ofBits_neg_inf, bot_sup_eq]
  refine (Host.reduce_eq_fold_single (FloatOps.maximumf (F := Ideal) (φ := .f32)) y
    (constant (F := Ideal) S_ .f32 0xFF800000#32) reducesTo_S131072x100_S131072_d1 (by decide) h_S_ (ix1 n)).trans ?_
  rw [constant_apply, Cert.Spec.ofBits_neg_inf]
  unfold Cert.Spec.rowMax
  refine congrArg (Finset.fold max ⊥ · Finset.univ) (funext fun k => ?_)
  exact congrArg y (funext fun a => Fin.ext (by match a with | ⟨0, _⟩ => rfl | ⟨1, _⟩ => rfl))

/-- The exponential stage at (n, c). -/
theorem stExp_apply (y : (⟨S131072x100, .f32⟩ : BufTy).Contents (Elt Ideal)) (n : Fin 131072) (c : Fin 100) :
    stExp y (ix2 n c) = Ideal.exp (y (ix2 n c) - Cert.Spec.rowMax (fun c' => y (ix2 n c'))) := by
  unfold stExp
  rw [hostExp_apply, subf_apply, column_apply, stMax_apply]

/-- The sum stage at row n: the sum of the row's exponentials. -/
theorem stSum_apply (y : (⟨S131072x100, .f32⟩ : BufTy).Contents (Elt Ideal)) (n : Fin 131072) :
    stSum y (ix1 n) = ∑ c : Fin 100, Ideal.exp (y (ix2 n c) - Cert.Spec.rowMax (fun c' => y (ix2 n c'))) := by
  unfold stSum
  simp only [Host.reduceAdd, Ideal.hostReduceAdd_def]
  rw [Ideal.hostReduceAdd_single reducesTo_S131072x100_S131072_d1 (by decide), constant_apply, Ideal.ofBits_zero_f32, zero_add]
  refine Finset.sum_congr rfl fun k _ => ?_
  rw [← stExp_apply y n k]
  exact congrArg (stExp y) (funext fun a => Fin.ext (by match a with | ⟨0, _⟩ => rfl | ⟨1, _⟩ => rfl))

/-- The softmax stage at (n, c) is the softmax of row n at class c. -/
theorem stSoftmax_apply (y : (⟨S131072x100, .f32⟩ : BufTy).Contents (Elt Ideal)) (n : Fin 131072) (c : Fin 100) :
    stSoftmax y (ix2 n c) = Cert.Spec.softmax (fun c' => y (ix2 n c')) c := by
  unfold stSoftmax
  rw [hostDivf_apply, column_apply, stSum_apply, stExp_apply]
  rfl

/-! ## The program's stages at an index -/

section Stages

variable (x0 : (⟨S131072x512, .f32⟩ : BufTy).Contents (Elt Ideal)) (x1 x2 : (⟨S100x512, .f32⟩ : BufTy).Contents (Elt Ideal))
  (x3 : (⟨S131072x100, .f32⟩ : BufTy).Contents (Elt Ideal)) (x4 : (⟨S512x512, .f32⟩ : BufTy).Contents (Elt Ideal))
  (x5 : (⟨S512, .f32⟩ : BufTy).Contents (Elt Ideal)) (x6 : (⟨S512x512, .f32⟩ : BufTy).Contents (Elt Ideal))
  (x7 : (⟨S512, .f32⟩ : BufTy).Contents (Elt Ideal)) (x8 : (⟨S512x512, .f32⟩ : BufTy).Contents (Elt Ideal))
  (x9 : (⟨S512, .f32⟩ : BufTy).Contents (Elt Ideal))

/-- The projected queries at (n, e). -/
theorem qp_apply (n : Fin 131072) (e : Fin 512) :
    val_main_v4 (F := Ideal) x0 x4 x5 (ix2 n e) = Cert.Spec.proj (M := 131072) x0 x4 x5 n e := by
  have el : ∀ k : Fin 512, lidx_main_v1 (ix2 n e) k = ix2 n k := fun k =>
    funext fun a => Fin.ext (by match a with | ⟨0, _⟩ => rfl | ⟨1, _⟩ => rfl)
  have er : ∀ k : Fin 512, idx_main_v0 (ridx_main_v1 (ix2 n e) k) = ix2 e k := fun k =>
    funext fun a => Fin.ext (by match a with | ⟨0, _⟩ => rfl | ⟨1, _⟩ => rfl)
  have eb : idx_main_v2 (idx_main_v3 (ix2 n e)) = ix1 e :=
    funext fun a => Fin.ext (by match a with | ⟨0, _⟩ => rfl)
  rw [val_main_v4_apply, val_main_v1_apply, val_main_v3_apply, val_main_v2_apply, eb]
  simp only [val_main_v0_apply, el, er]
  rfl

/-- The projected keys at (c, e). -/
theorem kp_apply (c : Fin 100) (e : Fin 512) :
    val_main_v9 (F := Ideal) x1 x6 x7 (ix2 c e) = Cert.Spec.proj (M := 100) x1 x6 x7 c e := by
  have el : ∀ k : Fin 512, lidx_main_v6 (ix2 c e) k = ix2 c k := fun k =>
    funext fun a => Fin.ext (by match a with | ⟨0, _⟩ => rfl | ⟨1, _⟩ => rfl)
  have er : ∀ k : Fin 512, idx_main_v5 (ridx_main_v6 (ix2 c e) k) = ix2 e k := fun k =>
    funext fun a => Fin.ext (by match a with | ⟨0, _⟩ => rfl | ⟨1, _⟩ => rfl)
  have eb : idx_main_v7 (idx_main_v8 (ix2 c e)) = ix1 e :=
    funext fun a => Fin.ext (by match a with | ⟨0, _⟩ => rfl)
  rw [val_main_v9_apply, val_main_v6_apply, val_main_v8_apply, val_main_v7_apply, eb]
  simp only [val_main_v5_apply, el, er]
  rfl

/-- The projected values at (c, d). -/
theorem vp_apply (c : Fin 100) (d : Fin 512) :
    val_main_v14 (F := Ideal) x2 x8 x9 (ix2 c d) = Cert.Spec.proj (M := 100) x2 x8 x9 c d := by
  have el : ∀ k : Fin 512, lidx_main_v11 (ix2 c d) k = ix2 c k := fun k =>
    funext fun a => Fin.ext (by match a with | ⟨0, _⟩ => rfl | ⟨1, _⟩ => rfl)
  have er : ∀ k : Fin 512, idx_main_v10 (ridx_main_v11 (ix2 c d) k) = ix2 d k := fun k =>
    funext fun a => Fin.ext (by match a with | ⟨0, _⟩ => rfl | ⟨1, _⟩ => rfl)
  have eb : idx_main_v12 (idx_main_v13 (ix2 c d)) = ix1 d :=
    funext fun a => Fin.ext (by match a with | ⟨0, _⟩ => rfl)
  rw [val_main_v14_apply, val_main_v11_apply, val_main_v13_apply, val_main_v12_apply, eb]
  simp only [val_main_v10_apply, el, er]
  rfl

/-- The scaled scores at (n, c). -/
theorem scores_apply (n : Fin 131072) (c : Fin 100) :
    val_main_v17 (F := Ideal) x0 x1 x4 x5 x6 x7 (ix2 n c)
      = (∑ e : Fin 512, Cert.Spec.proj (M := 131072) x0 x4 x5 n e * Cert.Spec.proj (M := 100) x1 x6 x7 c e) * Cert.Spec.scale := by
  have el : ∀ k : Fin 512, lidx_main_v15 (ix2 n c) k = ix2 n k := fun k =>
    funext fun a => Fin.ext (by match a with | ⟨0, _⟩ => rfl | ⟨1, _⟩ => rfl)
  have er : ∀ k : Fin 512, ridx_main_v15 (ix2 n c) k = ix2 c k := fun k =>
    funext fun a => Fin.ext (by match a with | ⟨0, _⟩ => rfl | ⟨1, _⟩ => rfl)
  rw [val_main_v17_apply, val_main_v15_apply, val_main_v16_apply]
  simp only [el, er, qp_apply, kp_apply]
  rfl

/-- The first softmax is the stage over the scores. -/
theorem v28_eq : val_main_v28 (F := Ideal) x0 x1 x4 x5 x6 x7 = stSoftmax (val_main_v17 (F := Ideal) x0 x1 x4 x5 x6 x7) := rfl
/-- The second softmax is the stage over the prior. -/
theorem v39_eq : val_main_v39 (F := Ideal) x3 = stSoftmax x3 := rfl
/-- The third softmax is the stage over the product of the first two. -/
theorem v51_eq : val_main_v51 (F := Ideal) x0 x1 x3 x4 x5 x6 x7 = stSoftmax (val_main_v40 (F := Ideal) x0 x1 x3 x4 x5 x6 x7) := rfl

/-- The product of the two softmaxes at (n, c). -/
theorem prod_apply (n : Fin 131072) (c : Fin 100) :
    val_main_v40 (F := Ideal) x0 x1 x3 x4 x5 x6 x7 (ix2 n c)
      = Cert.Spec.softmax (fun c' => (∑ e : Fin 512, Cert.Spec.proj (M := 131072) x0 x4 x5 n e * Cert.Spec.proj (M := 100) x1 x6 x7 c' e) * Cert.Spec.scale) c
        * Cert.Spec.softmax (fun c' => x3 (ix2 n c')) c := by
  rw [val_main_v40_apply, v28_eq, v39_eq, stSoftmax_apply, stSoftmax_apply]
  simp only [scores_apply]
  rfl

end Stages

/-- The reference's last stage is `G` of the arguments. -/
theorem ref_eq (x0 : (⟨S131072x512, .f32⟩ : BufTy).Contents (Elt Ideal)) (x1 x2 : (⟨S100x512, .f32⟩ : BufTy).Contents (Elt Ideal))
    (x3 : (⟨S131072x100, .f32⟩ : BufTy).Contents (Elt Ideal)) (x4 : (⟨S512x512, .f32⟩ : BufTy).Contents (Elt Ideal))
    (x5 : (⟨S512, .f32⟩ : BufTy).Contents (Elt Ideal)) (x6 : (⟨S512x512, .f32⟩ : BufTy).Contents (Elt Ideal))
    (x7 : (⟨S512, .f32⟩ : BufTy).Contents (Elt Ideal)) (x8 : (⟨S512x512, .f32⟩ : BufTy).Contents (Elt Ideal))
    (x9 : (⟨S512, .f32⟩ : BufTy).Contents (Elt Ideal)) :
    val_main_v52 (F := Ideal) x0 x1 x2 x3 x4 x5 x6 x7 x8 x9 = Cert.Spec.G x0 x1 x2 x3 x4 x5 x6 x7 x8 x9 := by
  funext i
  obtain ⟨n, d, rfl⟩ : ∃ (n : Fin 131072) (d : Fin 512), i = ix2 n d := ⟨i 0, i 1, eq_ix2 i⟩
  have el : ∀ k : Fin 100, lidx_main_v52 (ix2 n d) k = ix2 n k := fun k =>
    funext fun a => Fin.ext (by match a with | ⟨0, _⟩ => rfl | ⟨1, _⟩ => rfl)
  have er : ∀ k : Fin 100, ridx_main_v52 (ix2 n d) k = ix2 k d := fun k =>
    funext fun a => Fin.ext (by match a with | ⟨0, _⟩ => rfl | ⟨1, _⟩ => rfl)
  rw [val_main_v52_apply]
  simp only [el, er, v51_eq, stSoftmax_apply, prod_apply, vp_apply]
  rfl

end Cert.RefValue

end
-- ==== Proof.lean ====
/-
  Equivalence of an attention kernel with class priors against its reference, over the extended reals.

  Both programs project queries, keys and values through affine maps, score every query row against the 100 projected
  keys, pass the scores and the row's prior through a softmax each, multiply them, pass the product through a third
  softmax, and weigh the projected values with the outcome (`Cert.Spec.G`).  The kernel does this in two launches —
  one projecting keys and values, with the score scale folded into the transposed keys; one over 64 blocks of 2048
  query rows — where the reference works on whole arrays and scales the scores after their sum.  Narrowing to bf16
  is the identity on extended reals, a matrix product into a zero accumulator is the plain sum of products, and the
  positive real scale moves across the sum (`Cert.Spec.sum_mul_scale`); so both end at `G` of the arguments, for
  every input, finite or not.

  The kernel's run with its result array named is the launch theorem called once more over the generated segments
  (KernelRun); the regions' arrays are read back block by block (Region0, Region1, Chain), the main kernel's body at
  an entry in Body1, the reference's stages at an entry in RefValue.
-/
import proofs.«412218_j68470368633523_3_alg».proof.Defs
import proofs.«412218_j68470368633523_3_alg».proof.Proof.Gen.Kernel
import proofs.«412218_j68470368633523_3_alg».proof.Proof.Gen.Kernel.Skeleton
import proofs.«412218_j68470368633523_3_alg».proof.Proof.Gen.Kernel.Launch
import proofs.«412218_j68470368633523_3_alg».proof.Proof.Gen.Kernel.Points
import proofs.«412218_j68470368633523_3_alg».proof.Proof.Gen.Kernel.Frame
import proofs.«412218_j68470368633523_3_alg».proof.Proof.Gen.KernelIdeal
import proofs.«412218_j68470368633523_3_alg».proof.Proof.Gen.KernelIdeal.Skeleton
import proofs.«412218_j68470368633523_3_alg».proof.Proof.Gen.KernelIdeal.Launch
import proofs.«412218_j68470368633523_3_alg».proof.Proof.Gen.KernelIdeal.Points
import proofs.«412218_j68470368633523_3_alg».proof.Proof.Gen.KernelIdeal.Frame
import proofs.«412218_j68470368633523_3_alg».proof.Proof.Gen.ReferenceIdeal
import proofs.«412218_j68470368633523_3_alg».proof.Proof.Gen.ReferenceIdeal.Run
import proofs.«412218_j68470368633523_3_alg».proof.Proof.Gen.ReferenceIdeal.Read
import proofs.«412218_j68470368633523_3_alg».proof.Proof.Gen.Pre_finite_inputs
import proofs.«412218_j68470368633523_3_alg».proof.Proof.Spec
import proofs.«412218_j68470368633523_3_alg».proof.Proof.KernelRun
import proofs.«412218_j68470368633523_3_alg».proof.Proof.Chain
import proofs.«412218_j68470368633523_3_alg».proof.Proof.Body1
import proofs.«412218_j68470368633523_3_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at `G` of the arguments: the kernel's through its two regions and the scale
    moved across the score sum, the reference's stage by stage. -/
theorem algebraic : Cert.algebraic_KernelIdeal_ReferenceIdeal := by
  intro m ρ m' ρ' _ hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · refine (θ_run Cert.KernelIdeal.defs _ _).mono (fun r h c => ⟨(h c).1.trans ?_, (h c).2⟩)
      (Cert.KernelIdeal.Gen.run_value (F := Ideal) m ρ)
    exact (Cert.Chain.result_eq m ρ Cert.Body1.body1_apply c).trans (Cert.Spec.Gpre_eq_G _ _ _ _ _ _ _ _ _ _)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v52_eq, Cert.RefValue.ref_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
